-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v34)) (v2 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_v36) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v47) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x2048 : Shape := ⟨2, ![131072, 2048]⟩
abbrev S131072 : Shape := ⟨1, ![131072]⟩
abbrev S2048 : Shape := ⟨1, ![2048]⟩
abbrev S_ : Shape := ⟨0, ![]⟩

class Facts : Prop where
  bcast_S_S131072x2048 : S_.BroadcastsInDim S131072x2048 (![] : Fin 0 → Fin S131072x2048.rank)
  reducesTo_S131072x2048_S_d0_1 : S131072x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S131072x2048 .f32) (main_arg1 : IVec S131072 32) (main_arg2 : FVec F S2048 .f32) (main_arg3 : FVec F S2048 .f32) (main_arg4 : IVec S2048 32) : IVec S_ 1 :=
  let main_v0 : FVec F S131072x2048 .f32 := Host.absf main_arg0
  let main_cst : FVec F S_ .f32 := constant S_ .f32 0x7F800000#32
  let main_v1 : FVec F S131072x2048 .f32 := broadcastInDim S131072x2048 ![] bcast_S_S131072x2048 main_cst
  let main_v2 : IVec S131072x2048 1 := cmpf .olt main_v0 main_v1
  let main_c : IVec S_ 1 := constantI S_ 1 1#1
  let main_v3 : IVec S_ 1 := (fun x v => Host.reduce IntOp.andi x v reducesTo_S131072x2048_S_d0_1 h_S_) main_v2 main_c
  let main_v4 : FVec F S2048 .f32 := Host.absf main_arg2
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S131072x2048 : Shape := ⟨2, ![131072, 2048]⟩
abbrev S131072 : Shape := ⟨1, ![131072]⟩
abbrev S2048 : Shape := ⟨1, ![2048]⟩
abbrev S4096 : Shape := ⟨1, ![4096]⟩
abbrev S512 : Shape := ⟨1, ![512]⟩
abbrev S512x2048 : Shape := ⟨2, ![512, 2048]⟩
abbrev S512x1 : Shape := ⟨2, ![512, 1]⟩
abbrev S2x2048 : Shape := ⟨2, ![2, 2048]⟩
abbrev S_ : Shape := ⟨0, ![]⟩

abbrev nBuf : Space → Nat
  | .hbm => 56
  | .vmem => 10
  | .smem => 0
  | _ => 0

abbrev bufTy : (tb : Table) → Fin (tcTables nBuf tb) → BufTy
  | .hbm, ⟨0, _⟩ => ⟨S131072x2048, .f32⟩
  | .hbm, ⟨1, _⟩ => ⟨S131072, .i32⟩
  | .hbm, ⟨2, _⟩ => ⟨S2048, .f32⟩
  | .hbm, ⟨3, _⟩ => ⟨S2048, .f32⟩
  | .hbm, ⟨4, _⟩ => ⟨S2048, .i32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S2x2048, .f32⟩
  | .hbm, ⟨9, _⟩ => ⟨S2x2048, .f32⟩
  | .hbm, ⟨10, _⟩ => ⟨S2x2048, .f32⟩
  | .hbm, ⟨11, _⟩ => ⟨S_, .f32⟩
  | .hbm, ⟨12, _⟩ => ⟨S2048, .f32⟩
  | .hbm, ⟨13, _⟩ => ⟨S_, .f32⟩
  | .hbm, ⟨14, _⟩ => ⟨S2048, .f32⟩
  | .hbm, ⟨15, _⟩ => ⟨S_, .f32⟩
  | .hbm, ⟨16, _⟩ => ⟨S2048, .f32⟩
  | .hbm, ⟨17, _⟩ => ⟨S_, .f32⟩
  | .hbm, ⟨18, _⟩ => ⟨S2048, .f32⟩
  | .hbm, ⟨19, _⟩ => ⟨S2048, .f32⟩
  | .hbm, ⟨20, _⟩ => ⟨S2048, .f32⟩
  | .hbm, ⟨21, _⟩ => ⟨S2048, .f32⟩
  | .hbm, ⟨22, _⟩ => ⟨S2048, .f32⟩
  | .hbm, ⟨23, _⟩ => ⟨S2048, .f32⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S_, .i32⟩
  | .hbm, ⟨28, _⟩ => ⟨S2048, .i32⟩
  | .hbm, ⟨29, _⟩ => ⟨S2048, .i1⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S_, .f32⟩
  | .hbm, ⟨34, _⟩ => ⟨S2048, .f32⟩
  | .hbm, ⟨35, _⟩ => ⟨S2048, .f32⟩
  | .hbm, ⟨36, _⟩ => ⟨S2048, .f32⟩
  | .hbm, ⟨37, _⟩ => ⟨S2048, .f32⟩
  | .hbm, ⟨38, _⟩ => ⟨S_, .f32⟩
  | .hbm, ⟨39, _⟩ => ⟨S2048, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S2048, .f32⟩
  | .hbm, ⟨45, _⟩ => ⟨S2048, .f32⟩
  | .hbm, ⟨46, _⟩ => ⟨S_, .f32⟩
  | .hbm, ⟨47, _⟩ => ⟨S2048, .f32⟩
  | .hbm, ⟨48, _⟩ => ⟨S2048, .f32⟩
  | .hbm, ⟨49, _⟩ => ⟨S_, .f32⟩
  | .hbm, ⟨50, _⟩ => ⟨S2048, .f32⟩
  | .hbm, ⟨51, _⟩ => ⟨S2048, .i1⟩
  | .hbm, ⟨52, _⟩ => ⟨S2048, .f32⟩
  | .hbm, ⟨53, _⟩ => ⟨S2048, .f32⟩
  | .hbm, ⟨54, _⟩ => ⟨S2048, .i32⟩
  | .hbm, ⟨55, _⟩ => ⟨S2048, .i32⟩
  | .local _ .vmem, ⟨0, _⟩ => ⟨S512, .i32⟩
  | .local _ .vmem, ⟨1, _⟩ => ⟨S512, .i32⟩
  | .local _ .vmem, ⟨2, _⟩ => ⟨S512x2048, .f32⟩
  | .local _ .vmem, ⟨3, _⟩ => ⟨S512x2048, .f32⟩
  | .local _ .vmem, ⟨4, _⟩ => ⟨S2048, .f32⟩
  | .local _ .vmem, ⟨5, _⟩ => ⟨S2048, .f32⟩
  | .local _ .vmem, ⟨6, _⟩ => ⟨S2048, .f32⟩
  | .local _ .vmem, ⟨7, _⟩ => ⟨S2048, .f32⟩
  | .local _ .vmem, ⟨8, _⟩ => ⟨S2048, .f32⟩
  | .local _ .vmem, ⟨9, _⟩ => ⟨S2048, .f32⟩
  | _, _ => ⟨S131072x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_cst_9 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 128], ![false, false]⟩

def cc0_transform_0 (i : grid0.Coords) : Fin 1 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  ![v1.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S2048_S2048_0 : ∀ a, (![0] : Fin 1 → Nat) a + S2048.size a ≤ S2048.size a
  h_S2048 : 0 < S2048.numel
  inb_S512_S512_0 : ∀ a, (![0] : Fin 1 → Nat) a + S512.size a ≤ S512.size a
  h_S512 : 0 < S512.numel
  inb_S512x2048_S512x2048_0_0 : ∀ a, (![0, 0] : Fin 2 → Nat) a + S512x2048.size a ≤ S512x2048.size a
  h_S512x2048 : 0 < S512x2048.numel
  iota_S512x2048_d1_w32 : S512x2048.Iotas .tc 32 [1]
  shapeCasts_S512_S512x1 : S512.ShapeCasts S512x1
  broadcasts_S512x1_S512x2048 : S512x1.Broadcasts S512x2048
  reduces_S512x2048_S512 : S512x2048.Reduces [1] S512
  shapeCasts_S512x1_S512x1 : S512x1.ShapeCasts S512x1
  shapeCasts_S2048_S2048 : S2048.ShapeCasts S2048
  reduces_S512x2048_S2048 : S512x2048.Reduces [0] S2048
  shapeCasts_S4096_S2x2048 : S4096.ShapeCasts S2x2048
  reducesTo_S2x2048_S2048_d0 : S2x2048.ReducesTo [0] S2048
  h_S_ : 0 < S_.numel
  bcast_S_S2048 : S_.BroadcastsInDim S2048 (![] : Fin 0 → Fin S2048.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512.size a ≤ S131072.size a
  hwx0_0 : ∀ i : grid0.Coords, EltTy.bits .i32 = 32 ∨ (Rect.block (s := S131072) S512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S131072x2048.size a
  hwx0_1 : ∀ i : grid0.Coords, EltTy.bits .f32 = 32 ∨ (Rect.block (s := S131072x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S4096.size a
  hwx0_2 : ∀ i : grid0.Coords, EltTy.bits .f32 = 32 ∨ (Rect.block (s := S4096) S2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048.size a ≤ S4096.size a
  hwx0_3 : ∀ i : grid0.Coords, EltTy.bits .f32 = 32 ∨ (Rect.block (s := S4096) S2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048.size a ≤ S4096.size a
  hwx0_4 : ∀ i : grid0.Coords, EltTy.bits .f32 = 32 ∨ (Rect.block (s := S4096) S2048.size (cc0_transform_4 i) (hinb0_4 i)).WholeWords (EltTy.packing .f32)

variable [Facts₀]

abbrev win0_0 : Pipeline.Window sig grid0 :=
  Pipeline.Window.ofSpec (Memref.whole main_arg1) S512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S2048.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x2048 : Shape := ⟨2, ![131072, 2048]⟩
abbrev S131072 : Shape := ⟨1, ![131072]⟩
abbrev S2048 : Shape := ⟨1, ![2048]⟩
abbrev S131072x1 : Shape := ⟨2, ![131072, 1]⟩
abbrev S_ : Shape := ⟨0, ![]⟩
abbrev S131072x1x1 : Shape := ⟨3, ![131072, 1, 1]⟩
abbrev S1 : Shape := ⟨1, ![1]⟩
abbrev S1x1x1 : Shape := ⟨3, ![1, 1, 1]⟩

abbrev nBuf : Space → Nat
  | .hbm => 88
  | .vmem => 0
  | .smem => 0
  | _ => 0

abbrev bufTy : (tb : Table) → Fin (tcTables nBuf tb) → BufTy
  | .hbm, ⟨0, _⟩ => ⟨S131072x2048, .f32⟩
  | .hbm, ⟨1, _⟩ => ⟨S131072, .i32⟩
  | .hbm, ⟨2, _⟩ => ⟨S2048, .f32⟩
  | .hbm, ⟨3, _⟩ => ⟨S2048, .f32⟩
  | .hbm, ⟨4, _⟩ => ⟨S2048, .i32⟩
  | .hbm, ⟨5, _⟩ => ⟨S131072x1, .i32⟩
  | .hbm, ⟨6, _⟩ => ⟨S_, .i32⟩
  | .hbm, ⟨7, _⟩ => ⟨S131072x1, .i32⟩
  | .hbm, ⟨8, _⟩ => ⟨S131072x1, .i1⟩
  | .hbm, ⟨9, _⟩ => ⟨S_, .i32⟩
  | .hbm, ⟨10, _⟩ => ⟨S131072x1, .i32⟩
  | .hbm, ⟨11, _⟩ => ⟨S131072x1, .i32⟩
  | .hbm, ⟨12, _⟩ => ⟨S131072x1, .i32⟩
  | .hbm, ⟨13, _⟩ => ⟨S131072x1x1, .i32⟩
  | .hbm, ⟨14, _⟩ => ⟨S1, .i32⟩
  | .hbm, ⟨15, _⟩ => ⟨S_, .i32⟩
  | .hbm, ⟨16, _⟩ => ⟨S131072x1x1, .i32⟩
  | .hbm, ⟨17, _⟩ => ⟨S131072x1x1, .i1⟩
  | .hbm, ⟨18, _⟩ => ⟨S1x1x1, .i32⟩
  | .hbm, ⟨19, _⟩ => ⟨S131072x1x1, .i32⟩
  | .hbm, ⟨20, _⟩ => ⟨S131072x1x1, .i1⟩
  | .hbm, ⟨21, _⟩ => ⟨S131072x1x1, .i1⟩
  | .hbm, ⟨22, _⟩ => ⟨S_, .i1⟩
  | .hbm, ⟨23, _⟩ => ⟨S131072x1, .i1⟩
  | .hbm, ⟨24, _⟩ => ⟨S131072x1, .f32⟩
  | .hbm, ⟨25, _⟩ => ⟨S_, .f32⟩
  | .hbm, ⟨26, _⟩ => ⟨S131072x1, .f32⟩
  | .hbm, ⟨27, _⟩ => ⟨S131072x1, .f32⟩
  | .hbm, ⟨28, _⟩ => ⟨S131072, .f32⟩
  | .hbm, ⟨29, _⟩ => ⟨S_, .f32⟩
  | .hbm, ⟨30, _⟩ => ⟨S131072, .f32⟩
  | .hbm, ⟨31, _⟩ => ⟨S_, .f32⟩
  | .hbm, ⟨32, _⟩ => ⟨S2048, .f32⟩
  | .hbm, ⟨33, _⟩ => ⟨S131072x1, .i32⟩
  | .hbm, ⟨34, _⟩ => ⟨S2048, .f32⟩
  | .hbm, ⟨35, _⟩ => ⟨S_, .f32⟩
  | .hbm, ⟨36, _⟩ => ⟨S2048, .f32⟩
  | .hbm, ⟨37, _⟩ => ⟨S131072x1, .i32⟩
  | .hbm, ⟨38, _⟩ => ⟨S2048, .f32⟩
  | .hbm, ⟨39, _⟩ => ⟨S_, .f32⟩
  | .hbm, ⟨40, _⟩ => ⟨S2048, .f32⟩
  | .hbm, ⟨41, _⟩ => ⟨S2048, .f32⟩
  | .hbm, ⟨42, _⟩ => ⟨S2048, .f32⟩
  | .hbm, ⟨43, _⟩ => ⟨S_, .i32⟩
  | .hbm, ⟨44, _⟩ => ⟨S131072, .i32⟩
  | .hbm, ⟨45, _⟩ => ⟨S131072, .i1⟩
  | .hbm, ⟨46, _⟩ => ⟨S_, .i32⟩
  | .hbm, ⟨47, _⟩ => ⟨S131072, .i32⟩
  | .hbm, ⟨48, _⟩ => ⟨S131072, .i32⟩
  | .hbm, ⟨49, _⟩ => ⟨S131072, .i32⟩
  | .hbm, ⟨50, _⟩ => ⟨S131072x1, .i32⟩
  | .hbm, ⟨51, _⟩ => ⟨S131072, .f32⟩
  | .hbm, ⟨52, _⟩ => ⟨S131072, .f32⟩
  | .hbm, ⟨53, _⟩ => ⟨S131072, .f32⟩
  | .hbm, ⟨54, _⟩ => ⟨S_, .f32⟩
  | .hbm, ⟨55, _⟩ => ⟨S2048, .f32⟩
  | .hbm, ⟨56, _⟩ => ⟨S131072x1, .i32⟩
  | .hbm, ⟨57, _⟩ => ⟨S2048, .f32⟩
  | .hbm, ⟨58, _⟩ => ⟨S2048, .f32⟩
  | .hbm, ⟨59, _⟩ => ⟨S_, .i32⟩
  | .hbm, ⟨60, _⟩ => ⟨S2048, .i32⟩
  | .hbm, ⟨61, _⟩ => ⟨S2048, .i1⟩
  | .hbm, ⟨62, _⟩ => ⟨S_, .f32⟩
  | .hbm, ⟨63, _⟩ => ⟨S2048, .f32⟩
  | .hbm, ⟨64, _⟩ => ⟨S2048, .f32⟩
  | .hbm, ⟨65, _⟩ => ⟨S_, .f32⟩
  | .hbm, ⟨66, _⟩ => ⟨S2048, .f32⟩
  | .hbm, ⟨67, _⟩ => ⟨S2048, .f32⟩
  | .hbm, ⟨68, _⟩ => ⟨S2048, .f32⟩
  | .hbm, ⟨69, _⟩ => ⟨S2048, .f32⟩
  | .hbm, ⟨70, _⟩ => ⟨S_, .f32⟩
  | .hbm, ⟨71, _⟩ => ⟨S2048, .f32⟩
  | .hbm, ⟨72, _⟩ => ⟨S2048, .f32⟩
  | .hbm, ⟨73, _⟩ => ⟨S_, .f32⟩
  | .hbm, ⟨74, _⟩ => ⟨S2048, .f32⟩
  | .hbm, ⟨75, _⟩ => ⟨S2048, .f32⟩
  | .hbm, ⟨76, _⟩ => ⟨S2048, .f32⟩
  | .hbm, ⟨77, _⟩ => ⟨S2048, .f32⟩
  | .hbm, ⟨78, _⟩ => ⟨S_, .f32⟩
  | .hbm, ⟨79, _⟩ => ⟨S2048, .f32⟩
  | .hbm, ⟨80, _⟩ => ⟨S2048, .f32⟩
  | .hbm, ⟨81, _⟩ => ⟨S_, .f32⟩
  | .hbm, ⟨82, _⟩ => ⟨S2048, .f32⟩
  | .hbm, ⟨83, _⟩ => ⟨S2048, .i1⟩
  | .hbm, ⟨84, _⟩ => ⟨S2048, .f32⟩
  | .hbm, ⟨85, _⟩ => ⟨S2048, .f32⟩
  | .hbm, ⟨86, _⟩ => ⟨S2048, .i32⟩
  | .hbm, ⟨87, _⟩ => ⟨S2048, .i32⟩
  | _, _ => ⟨S131072x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v1 : Ref sig .tc := ⟨.hbm, 27, rfl⟩
abbrev main_v2 : Ref sig .tc := ⟨.hbm, 28, rfl⟩
abbrev main_cst : Ref sig .tc := ⟨.hbm, 29, rfl⟩
abbrev main_v3 : Ref sig .tc := ⟨.hbm, 30, rfl⟩
abbrev main_cst_0 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst_1 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst_2 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_c : Ref sig .tc := ⟨.hbm, 43, rfl⟩
abbrev main_v13 : Ref sig .tc := ⟨.hbm, 44, rfl⟩
abbrev main_v14 : Ref sig .tc := ⟨.hbm, 45, rfl⟩
abbrev main_c_3 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_4 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_c_5 : Ref sig .tc := ⟨.hbm, 59, rfl⟩
abbrev main_v26 : Ref sig .tc := ⟨.hbm, 60, rfl⟩
abbrev main_v27 : Ref sig .tc := ⟨.hbm, 61, rfl⟩
abbrev main_cst_6 : Ref sig .tc := ⟨.hbm, 62, rfl⟩
abbrev main_v28 : Ref sig .tc := ⟨.hbm, 63, rfl⟩
abbrev main_v29 : Ref sig .tc := ⟨.hbm, 64, rfl⟩
abbrev main_cst_7 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_cst_8 : Ref sig .tc := ⟨.hbm, 70, rfl⟩
abbrev main_v34 : Ref sig .tc := ⟨.hbm, 71, rfl⟩
abbrev main_v35 : Ref sig .tc := ⟨.hbm, 72, rfl⟩
abbrev main_cst_9 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_cst_10 : Ref sig .tc := ⟨.hbm, 78, rfl⟩
abbrev main_v40 : Ref sig .tc := ⟨.hbm, 79, rfl⟩
abbrev main_v41 : Ref sig .tc := ⟨.hbm, 80, rfl⟩
abbrev main_cst_11 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩

abbrev nD : Nat := 1
abbrev τ : Topo := Topo.v7x

variable {F : FTy → Type} [FloatOps F]

class Facts₀ : Prop where
  bcast_S131072_S131072x1_0 : S131072.BroadcastsInDim S131072x1 (![0] : Fin 1 → Fin S131072x1.rank)
  bcast_S_S131072x1 : S_.BroadcastsInDim S131072x1 (![] : Fin 0 → Fin S131072x1.rank)
  shapeCasts_S131072x1_S131072x1x1 : S131072x1.ShapeCasts S131072x1x1
  bcast_S_S131072x1x1 : S_.BroadcastsInDim S131072x1x1 (![] : Fin 0 → Fin S131072x1x1.rank)
  bcast_S1_S1x1x1_2 : S1.BroadcastsInDim S1x1x1 (![2] : Fin 1 → Fin S1x1x1.rank)
  bcast_S1x1x1_S131072x1x1_0_1_2 : S1x1x1.BroadcastsInDim S131072x1x1 (![0, 1, 2] : Fin 3 → Fin S131072x1x1.rank)
  reducesTo_S131072x1x1_S131072x1_d2 : S131072x1x1.ReducesTo [2] S131072x1
  h_S_ : 0 < S_.numel
  shapeCasts_S131072x1_S131072 : S131072x1.ShapeCasts S131072
  bcast_S_S131072 : S_.BroadcastsInDim S131072 (![] : Fin 0 → Fin S131072.rank)
  bcast_S_S2048 : S_.BroadcastsInDim S2048 (![] : Fin 0 → Fin S2048.rank)
  gather_S131072x2048_S131072x1x1_S131072x1_n_1_0_0_1_2_11_wf : GatherDims.WF S131072x2048 S131072x1x1 S131072x1 [] [1] [0] [1] [0] 2 ![1, 1]
  scatter_S2048_S131072x1_S131072_n_0_0_1_wf : ScatterDims.WF S2048 S131072x1 S131072 [] [0] [0] 1
  gather_S2048_S131072x1_S131072_n_0_n_n_0_1_1_wf : GatherDims.WF S2048 S131072x1 S131072 [] [0] [] [0] [] 1 ![1]

variable [Facts₀]

def gather_S131072x2048_S131072x1x1_S131072x1_n_1_0_0_1_2_11 : GatherDims S131072x2048 S131072x1x1 S131072x1 where
  offsetDims := []
  collapsedSliceDims := [1]
  operandBatchingDims := [0]
  startIndicesBatchingDims := [0]
  startIndexMap := [1]
  indexVectorDim := 2
  sliceSizes := ![1, 1]
  wf := gather_S131072x2048_S131072x1x1_S131072x1_n_1_0_0_1_2_11_wf
def scatter_S2048_S131072x1_S131072_n_0_0_1 : ScatterDims S2048 S131072x1 S131072 where
  updateWindowDims := []
  insertedWindowDims := [0]
  scatterDimsToOperandDims := [0]
  indexVectorDim := 1
  wf := scatter_S2048_S131072x1_S131072_n_0_0_1_wf
def gather_S2048_S131072x1_S131072_n_0_n_n_0_1_1 : GatherDims S2048 S131072x1 S131072 where
  offsetDims := []
  collapsedSliceDims := [0]
  operandBatchingDims := []
  startIndicesBatchingDims := []
  startIndexMap := [0]
  indexVectorDim := 1
  sliceSizes := ![1]
  wf := gather_S2048_S131072x1_S131072_n_0_n_n_0_1_1_wf

class Facts : Prop extends Facts₀ where

variable [Facts]
-- ==== Proof.LibGatherScatter.lean ====
/-
  The three index operations of one graph-convolution layer, READ AT AN INDEX, over generic extents: `N` rows (nodes),
  `E` start indices (edges), rows of width `D`.

  * the row gather `[N, D] → [E, D]` at a column `[E, 1]` of start indices (`gathD`): result `(e, q)` is the
    operand at `(row (idx (e, 0)), q)`;
  * the entry gather `[N] → [E]` at the same column (`gath1`): result `e` is the operand at `row (idx (e, 0))`;
    `row` is ONE function of the index word for both: the word read signed and clamped into `[0, N − 1]`;
  * the accumulating scatter `[E, D] → [N, D]` (`scatD`) and `[E] → [N]` (`scat1`) at a column of scatter indices:
    update `(e, q')` lands on `(i, q)` exactly when `q' = q` and the index word of `e`, read signed and NOT clamped,
    is `i`; hence at the ideal instance the scatter's value at `(i, q)` is the operand's plus the sum, over the edges
    `e` whose word is `i`, of the updates `(e, q)`.

  The dimension-number records are written out here with their well-formedness as an argument, so that a program's own
  record of the same fields is one of these by unfolding.
-/
import Idealize.ShloMosaic.PureOps.Ideal
import Idealize.ShloMosaic.Lib.ValueIdx

open scoped BigOperators

namespace Cert.Proof.GS

open Idealize.ShloMosaic Idealize.ShloMosaic.ValueIdx

/-! ## The records -/

/-- Row gather: operand `[N, D]`, start indices `[E, 1]`, result `[E, D]`; axis 0 collapsed and start-indexed, axis 1
    an offset axis of full width. -/
abbrev gathD (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Entry gather: operand `[N]`, start indices `[E, 1]`, result `[E]`; the one axis collapsed and start-indexed. -/
abbrev gath1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Row scatter: operand `[N, D]`, scatter indices `[E, 1]`, updates `[E, D]`; axis 0 inserted and scatter-indexed,
    axis 1 the window. -/
abbrev scatD (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Entry scatter: operand `[N]`, scatter indices `[E, 1]`, updates `[E]`; no window. -/
abbrev scat1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## The gathers at an index -/

/-- The row a gather reads for an index word: the word as a signed integer, clamped into `[0, N − 1]` (a negative
    word reads row 0, a word past the end the last row). -/
def row {N : Nat} (hN : 0 < N) {w : Nat} (b : BitVec w) : Fin N := ⟨min b.toInt.toNat (N - 1), by omega⟩

/-- A word whose signed value is a row number is sent to that row: the clamp leaves it alone. -/
theorem row_of_toInt {N : Nat} (hN : 0 < N) {w : Nat} (b : BitVec w) (i : Fin N) (h : b.toInt = (i.val : Int)) :
    row hN b = i := by
  refine Fin.ext ?_
  show min b.toInt.toNat (N - 1) = i.val
  rw [h, Int.toNat_natCast]
  have := i.isLt
  omega

variable {α : Type}

/-- THE ROW GATHER AT `(e, q)`: the operand at row `row (idx (e, 0))`, column `q`. On axis 0 (collapsed, no batching)
    the operand coordinate is the clamped start; on axis 1 (not start-indexed) it is the offset coordinate `q`. -/
theorem gather_gathD_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (gathD N E D wf) x idx (ix2 e q) = x (ix2 (row hN (idx (ix2 e (0 : Fin 1)))) q) := by
  unfold Host.gather
  congr 1
  funext a
  refine Fin.ext ?_
  match a with
  | ⟨0, _⟩ =>
    show (gathD N E D wf).start (ix2 e q) idx 0 + (gathD N E D wf).batchCoord (ix2 e q) 0
      + (gathD N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (gathD N E D wf).startIndexMap from List.mem_singleton.mpr rfl)]
    show min (idx _).toInt.toNat (N - 1) = min (idx (ix2 e (0 : Fin 1))).toInt.toNat (N - 1)
    congr 3
    congr 1
    funext b
    refine Fin.ext ?_
    match b with
    | ⟨0, _⟩ => rfl
    | ⟨1, _⟩ => rfl
  | ⟨1, _⟩ =>
    show (gathD N E D wf).start (ix2 e q) idx 1 + (gathD N E D wf).batchCoord (ix2 e q) 1
      + (gathD N E D wf).offCoord (ix2 e q) 1 = q.val
    rw [GatherDims.batchCoord_eq_zero _ _ _ List.not_mem_nil]
    have h1 : (1 : Fin 2) ∉ (gathD N E D wf).startIndexMap :=
      show (1 : Fin 2) ∉ ([0] : List (Fin 2)) by decide
    have hk : (1 : Fin 2) ∈ (gathD N E D wf).sKept :=
      (GatherDims.mem_sKept _ _).mpr ⟨show (1 : Fin 2) ∉ ([0] : List (Fin 2)) by decide, List.not_mem_nil⟩
    unfold GatherDims.start GatherDims.offCoord
    rw [dif_neg h1, dif_pos hk]
    simp only [Nat.zero_add]
    rfl

/-- THE ENTRY GATHER AT `e`: the operand at `row (idx (e, 0))`, the same row the row gather reads for that edge. -/
theorem gather_gath1_apply {N E w : Nat} (hN : 0 < N)
    (wf : GatherDims.WF ⟨1, ![N]⟩ ⟨2, ![E, 1]⟩ ⟨1, ![E]⟩ [] [0] [] [0] [] 1 ![1])
    (v : (⟨1, ![N]⟩ : Shape).Idx → α) (idx : IVec ⟨2, ![E, 1]⟩ w) (e : Fin E) :
    Host.gather (gath1 N E wf) v idx (ix1 e) = v (ix1 (row hN (idx (ix2 e (0 : Fin 1))))) := by
  unfold Host.gather
  congr 1
  funext a
  obtain rfl : a = 0 := Subsingleton.elim _ _
  refine Fin.ext ?_
  show (gath1 N E wf).start (ix1 e) idx 0 + (gath1 N E wf).batchCoord (ix1 e) 0 + (gath1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ (gath1 N E wf).startIndexMap from List.mem_singleton.mpr rfl)]
  show min (idx _).toInt.toNat (N - 1) = min (idx (ix2 e (0 : Fin 1))).toInt.toNat (N - 1)
  congr 3
  congr 1
  funext b
  refine Fin.ext ?_
  match b with
  | ⟨0, _⟩ => rfl
  | ⟨1, _⟩ => rfl

/-! ## Where a scattered update lands -/

/-- For any scatter: an update lands on operand index `r` exactly when, on every axis, its signed start plus its
    window coordinate is `r`'s coordinate (if the sum leaves the operand on some axis the update is dropped, and no
    `r` has that coordinate). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro hh a
      have := congrFun (Option.some.inj hh) a
      rw [← this]
      exact (Int.toNat_of_nonneg (h a).1).symm
    · intro hall
      congr 1
      funext a
      refine Fin.ext ?_
      show (d.start j idx a + (d.window j a : Int)).toNat = (r a).val
      rw [hall a]; exact Int.toNat_natCast _
  · next h =>
    constructor
    · intro hh; cases hh
    · intro hall
      exfalso; apply h; intro a
      rw [hall a]
      exact ⟨Int.natCast_nonneg _, by exact_mod_cast (r a).isLt⟩

section ScatD
variable {N E D w : Nat} (wf : ScatterDims.WF ⟨2, ![N, D]⟩ ⟨2, ![E, 1]⟩ ⟨2, ![E, D]⟩ [1] [0] [0] 1)
  (idx : IVec ⟨2, ![E, 1]⟩ w) (e : Fin E) (q' : Fin D)

/-- Row scatter, axis 0: the start is the edge's index word read signed … -/
theorem scatD_start0 : (scatD N E D wf).start (ix2 e q') idx 0 = (idx (ix2 e (0 : Fin 1))).toInt := by
  unfold ScatterDims.start
  rw [dif_pos (show (0 : Fin 2) ∈ (scatD N E D wf).scatterDimsToOperandDims from List.mem_singleton.mpr rfl)]
  congr 2
  funext b
  refine Fin.ext ?_
  match b with
  | ⟨0, _⟩ => rfl
  | ⟨1, _⟩ => rfl

/-- … and there is no window coordinate (the axis is inserted). -/
theorem scatD_window0 : (scatD N E D wf).window (ix2 e q') 0 = 0 := by
  unfold ScatterDims.window
  rw [dif_neg]
  intro h
  have : (0 : Fin 2) ∉ ([0] : List (Fin 2)) := by
    simpa [ScatterDims.sKept, Shape.kept, List.mem_filter] using h
  exact this (List.mem_singleton.mpr rfl)

/-- Row scatter, axis 1: not scatter-indexed, start 0 … -/
theorem scatD_start1 : (scatD N E D wf).start (ix2 e q') idx 1 = 0 := by
  unfold ScatterDims.start
  rw [dif_neg (show (1 : Fin 2) ∉ ([0] : List (Fin 2)) by decide)]

/-- … and the window coordinate is the update's column. -/
theorem scatD_window1 : (scatD N E D wf).window (ix2 e q') 1 = q'.val := by
  unfold ScatterDims.window
  have hk : (1 : Fin 2) ∈ (scatD N E D wf).sKept := by
    simp [ScatterDims.sKept, Shape.kept, List.mem_filter]
  rw [dif_pos hk]
  rfl

/-- WHERE A ROW UPDATE LANDS: update `(e, q')` lands on `(i, q)` iff `q' = q` and the edge's index word, read signed,
    is `i`. -/
theorem scatD_resultIdx?_iff (i : Fin N) (q : Fin D) :
    (scatD N E D wf).resultIdx? (ix2 e q') idx = some (ix2 i q)
      ↔ q' = q ∧ (idx (ix2 e (0 : Fin 1))).toInt = (i.val : Int) := by
  rw [resultIdx?_eq_some_iff]
  constructor
  · intro h
    have h0 : (scatD N E D wf).start (ix2 e q') idx 0 + ((scatD N E D wf).window (ix2 e q') 0 : Int) = (i.val : Int) :=
      h 0
    have h1 : (scatD N E D wf).start (ix2 e q') idx 1 + ((scatD N E D wf).window (ix2 e q') 1 : Int) = (q.val : Int) :=
      h 1
    rw [scatD_start0, scatD_window0] at h0
    rw [scatD_start1, scatD_window1] at h1
    refine ⟨Fin.ext ?_, ?_⟩
    · have : ((q'.val : Int)) = (q.val : Int) := by simpa using h1
      exact_mod_cast this
    · simpa using h0
  · rintro ⟨rfl, ht⟩ a
    match a with
    | ⟨0, _⟩ =>
      show (scatD N E D wf).start (ix2 e q') idx 0 + ((scatD N E D wf).window (ix2 e q') 0 : Int) = (i.val : Int)
      rw [scatD_start0, scatD_window0, ht]; simp
    | ⟨1, _⟩ =>
      show (scatD N E D wf).start (ix2 e q') idx 1 + ((scatD N E D wf).window (ix2 e q') 1 : Int) = (q'.val : Int)
      rw [scatD_start1, scatD_window1]; simp

end ScatD

section Scat1
variable {N E w : Nat} (wf : ScatterDims.WF ⟨1, ![N]⟩ ⟨2, ![E, 1]⟩ ⟨1, ![E]⟩ [] [0] [0] 1)
  (idx : IVec ⟨2, ![E, 1]⟩ w) (e : Fin E)

/-- Entry scatter: the start is the edge's index word read signed … -/
theorem scat1_start0 : (scat1 N E wf).start (ix1 e) idx 0 = (idx (ix2 e (0 : Fin 1))).toInt := by
  unfold ScatterDims.start
  rw [dif_pos (show (0 : Fin 1) ∈ (scat1 N E wf).scatterDimsToOperandDims from List.mem_singleton.mpr rfl)]
  congr 2
  funext b
  refine Fin.ext ?_
  match b with
  | ⟨0, _⟩ => rfl
  | ⟨1, _⟩ => rfl

/-- … and there is no window. -/
theorem scat1_window0 : (scat1 N E wf).window (ix1 e) 0 = 0 := by
  unfold ScatterDims.window
  rw [dif_neg]
  intro h
  have : (0 : Fin 1) ∉ ([0] : List (Fin 1)) := by
    simpa [ScatterDims.sKept, Shape.kept, List.mem_filter] using h
  exact this (List.mem_singleton.mpr rfl)

/-- WHERE AN ENTRY UPDATE LANDS: update `e` lands on `i` iff the edge's index word, read signed, is `i`. -/
theorem scat1_resultIdx?_iff (i : Fin N) :
    (scat1 N E wf).resultIdx? (ix1 e) idx = some (ix1 i) ↔ (idx (ix2 e (0 : Fin 1))).toInt = (i.val : Int) := by
  rw [resultIdx?_eq_some_iff]
  constructor
  · intro h
    have h0 : (scat1 N E wf).start (ix1 e) idx 0 + ((scat1 N E wf).window (ix1 e) 0 : Int) = (i.val : Int) := h 0
    rw [scat1_start0, scat1_window0] at h0
    simpa using h0
  · intro ht a
    obtain rfl : a = 0 := Subsingleton.elim _ _
    show (scat1 N E wf).start (ix1 e) idx 0 + ((scat1 N E wf).window (ix1 e) 0 : Int) = (i.val : Int)
    rw [scat1_start0, scat1_window0, ht]; simp

end Scat1

/-! ## The accumulating scatter at an index, at the ideal instance -/

section ScatterAddAt
open Finset

/-- THE ROW SCATTER-ADD AT `(i, q)`: the operand's entry plus the sum, over the edges `e` whose index word read signed
    is `i`, of the update entries `(e, q)`. The updates that land on `(i, q)` are the `(e, q')` with `q' = q` and word
    `i`: the sum over the pairs collapses to the sum over the edges. -/
theorem scatterAdd_scatD_apply {N E D w : Nat} (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32)
    (i : Fin N) (q : Fin D) :
    Host.scatterAdd (scatD N E D wf) x idx upd (ix2 i q)
      = x (ix2 i q) + ∑ e ∈ univ.filter (fun e : Fin E => (idx (ix2 e (0 : Fin 1))).toInt = (i.val : Int)), upd (ix2 e q) := by
  classical
  show x (ix2 i q) + ∑ j ∈ univ.filter (fun j => (scatD N E D wf).resultIdx? j idx = some (ix2 i q)), upd j = _
  congr 1
  rw [Finset.sum_filter, sum_idx2, Finset.sum_filter]
  refine Finset.sum_congr rfl fun e _ => ?_
  simp only [scatD_resultIdx?_iff]
  by_cases ht : (idx (ix2 e (0 : Fin 1))).toInt = (i.val : Int)
  · simp [ht]
  · simp [ht]

/-- THE ENTRY SCATTER-ADD AT `i`: the operand's entry plus the sum, over the edges whose index word read signed is
    `i`, of their updates. -/
theorem scatterAdd_scat1_apply {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (i : Fin N) :
    Host.scatterAdd (scat1 N E wf) x idx upd (ix1 i)
      = x (ix1 i) + ∑ e ∈ univ.filter (fun e : Fin E => (idx (ix2 e (0 : Fin 1))).toInt = (i.val : Int)), upd (ix1 e) := by
  classical
  show x (ix1 i) + ∑ j ∈ univ.filter (fun j => (scat1 N E wf).resultIdx? j idx = some (ix1 i)), upd j = _
  congr 1
  refine Finset.sum_bij' (fun j _ => (j 0 : Fin E)) (fun e _ => ix1 e) ?_ ?_ ?_ ?_ ?_
  · intro j hj
    have h2 := (Finset.mem_filter.mp hj).2
    rw [eq_ix1 j] at h2
    exact Finset.mem_filter.mpr ⟨Finset.mem_univ _, (scat1_resultIdx?_iff wf idx _ i).mp h2⟩
  · intro e he
    exact Finset.mem_filter.mpr ⟨Finset.mem_univ _, (scat1_resultIdx?_iff wf idx e i).mpr (Finset.mem_filter.mp he).2⟩
  · intro j _; exact (eq_ix1 j).symm
  · intro e _; rfl
  · intro j _; exact congrArg upd (eq_ix1 j)

end ScatterAddAt

end Cert.Proof.GS
-- ==== Proof.ClassSums.lean ====
/-
  The statistics both programs compute, as plain sums over the batch, and the laws that join the two programs.

  A batch of 131072 rows of 2048 entries `x`, and for each row a class word `tg`. Row `b` BELONGS to class `k` when its
  word is the 32-bit word of `k` (a word outside `[0, 2048)` belongs to no class). Per class `k`:
    `cnt k`  — how many rows belong to it;
    `sm k`   — the sum of their own entries `x (b, k)`;
    `sq k`   — the sum of the squares of those entries;
    `ssd μ k` — the sum of their squared deviations from `μ`.
  The kernel walks the batch in 256 blocks of 512 rows (block `t` holds rows `512 t … 512 t + 511`), blocks `0 … 127` on
  the first half of its output and `128 … 255` on the second, and finds a row's own entry as a lane sum over a one-hot
  mask (`own`); the halves are added afterwards. `half*` are those per-half sums, `*_halves` say the two halves add up to the
  whole-batch sums, and `var_eq` is the identity  ∑ (x - s/n)² / n = ∑ x² / n - (s/n)²  (and that it is not negative),
  for real entries, with `n` replaced by `max n 1` (an empty class has all three sums zero).
-/
import Idealize.ShloMosaic.PureOps.Ideal.Laws
import Idealize.ShloMosaic.Lib.ValueIdx
import Idealize.ShloMosaic.Lib.IdealHost

open scoped BigOperators

noncomputable section

namespace Cert.Proof.ClassSums

open Idealize.ShloMosaic Idealize.ShloMosaic.ValueIdx

/-- Row `r` of block `t`, as a row of the batch. -/
def brow (t : Fin 256) (r : Fin 512) : Fin 131072 := ⟨t.val * 512 + r.val, by have := t.isLt; have := r.isLt; omega⟩

/-- Block `i` of half `p`, as a block of the batch. -/
def hblock (p : Fin 2) (i : Fin 128) : Fin 256 := ⟨p.val * 128 + i.val, by have := p.isLt; have := i.isLt; omega⟩

variable (tg : (⟨1, ![131072]⟩ : Shape).Idx → BitVec 32) (x : (⟨2, ![131072, 2048]⟩ : Shape).Idx → EReal)

/-- A row's own entry as a one-hot lane sum: the entries of the row at the lanes whose number is the row's word. -/
def own (b : Fin 131072) : EReal := ∑ j : Fin 2048, if tg (ix1 b) = BitVec.ofNat 32 j.val then x (ix2 b j) else 0

/-- How many rows belong to class `k`. -/
def cnt (k : Fin 2048) : EReal := ∑ b : Fin 131072, if tg (ix1 b) = BitVec.ofNat 32 k.val then (1 : EReal) else 0
/-- The sum of the own entries of the rows of class `k`. -/
def sm (k : Fin 2048) : EReal := ∑ b : Fin 131072, if tg (ix1 b) = BitVec.ofNat 32 k.val then x (ix2 b k) else 0
/-- The sum of the squares of the own entries of the rows of class `k`. -/
def sq (k : Fin 2048) : EReal :=
  ∑ b : Fin 131072, if tg (ix1 b) = BitVec.ofNat 32 k.val then x (ix2 b k) * x (ix2 b k) else 0
/-- The sum of the squared deviations from `μ` of the own entries of the rows of class `k`. -/
def ssd (μ : EReal) (k : Fin 2048) : EReal :=
  ∑ b : Fin 131072, if tg (ix1 b) = BitVec.ofNat 32 k.val then (x (ix2 b k) - μ) * (x (ix2 b k) - μ) else 0

/-- One block's part of the count of class `k`. -/
def blockCnt (t : Fin 256) (k : Fin 2048) : EReal :=
  ∑ r : Fin 512, if tg (ix1 (brow t r)) = BitVec.ofNat 32 k.val then (1 : EReal) else 0
/-- One block's part of the sum of class `k`, the own entry found as the one-hot lane sum. -/
def blockSm (t : Fin 256) (k : Fin 2048) : EReal :=
  ∑ r : Fin 512, if tg (ix1 (brow t r)) = BitVec.ofNat 32 k.val then own tg x (brow t r) else 0
/-- One block's part of the sum of squares of class `k`. -/
def blockSq (t : Fin 256) (k : Fin 2048) : EReal :=
  ∑ r : Fin 512, if tg (ix1 (brow t r)) = BitVec.ofNat 32 k.val then own tg x (brow t r) * own tg x (brow t r) else 0

/-- The three sums over one half of the batch (128 blocks). -/
def halfCnt (p : Fin 2) (k : Fin 2048) : EReal := ∑ i : Fin 128, blockCnt tg (hblock p i) k
def halfSm (p : Fin 2) (k : Fin 2048) : EReal := ∑ i : Fin 128, blockSm tg x (hblock p i) k
def halfSq (p : Fin 2) (k : Fin 2048) : EReal := ∑ i : Fin 128, blockSq tg x (hblock p i) k

/-- In a row of class `k` the one-hot lane sum is the entry at lane `k`: the words of distinct lanes differ. -/
theorem own_of_hit (b : Fin 131072) (k : Fin 2048) (h : tg (ix1 b) = BitVec.ofNat 32 k.val) :
    own tg x b = x (ix2 b k) := by
  have hinj : ∀ j : Fin 2048, (BitVec.ofNat 32 k.val = BitVec.ofNat 32 j.val) ↔ k = j := by
    intro j
    constructor
    · intro e
      have e' := congrArg BitVec.toNat e
      rw [BitVec.toNat_ofNat, BitVec.toNat_ofNat] at e'
      have hk := k.isLt
      have hj := j.isLt
      apply Fin.ext
      omega
    · rintro rfl
      rfl
  unfold own
  rw [h]
  simp only [hinj, Finset.sum_ite_eq, Finset.mem_univ, if_true]

/-- A position `i * n + j` with `i < m`, `j < n` lies below `m * n`. -/
private theorem blk_lt {m n N : ℕ} (hN : m * n = N) (i : Fin m) (j : Fin n) : i.val * n + j.val < N := by
  subst hN
  have hi := i.isLt
  have hj := j.isLt
  calc i.val * n + j.val < i.val * n + n := by omega
    _ = (i.val + 1) * n := by ring
    _ ≤ m * n := Nat.mul_le_mul_right n hi

/-- A sum over `m * n` positions is the sum over `m` blocks of the sums over the `n` positions of a block. -/
private theorem sum_fin_mul {M : Type*} [AddCommMonoid M] {m n N : ℕ} (hN : m * n = N) (f : Fin N → M) :
    ∑ b : Fin N, f b = ∑ i : Fin m, ∑ j : Fin n, f ⟨i.val * n + j.val, blk_lt hN i j⟩ := by
  subst hN
  rw [← Fintype.sum_prod_type']
  symm
  apply Fintype.sum_equiv finProdFinEquiv
  rintro ⟨i, j⟩
  refine congrArg f ?_
  apply Fin.ext
  simp only [finProdFinEquiv_apply_val]
  ring

/-- THE REGROUPING. Every row of the batch is row `r` of block `i` of half `p` for exactly one `(p, i, r)`, so a sum over the
    batch is the sum of the two halves' sums over their blocks' rows. -/
private theorem regroup (f : Fin 131072 → EReal) :
    (∑ i : Fin 128, ∑ r : Fin 512, f (brow (hblock 0 i) r)) + (∑ i : Fin 128, ∑ r : Fin 512, f (brow (hblock 1 i) r))
      = ∑ b : Fin 131072, f b := by
  have h1 : ∑ b : Fin 131072, f b = ∑ t : Fin 256, ∑ r : Fin 512, f (brow t r) :=
    sum_fin_mul (m := 256) (n := 512) (by norm_num) f
  have h2 : ∑ t : Fin 256, ∑ r : Fin 512, f (brow t r)
      = ∑ p : Fin 2, ∑ i : Fin 128, ∑ r : Fin 512, f (brow (hblock p i) r) :=
    sum_fin_mul (m := 2) (n := 128) (by norm_num) (fun t => ∑ r : Fin 512, f (brow t r))
  rw [h1, h2, Fin.sum_univ_two]

/-- The two halves' counts add up to the batch's: every row lies in exactly one block of one half. -/
theorem cnt_halves (k : Fin 2048) : halfCnt tg 0 k + halfCnt tg 1 k = cnt tg k := by
  simp only [halfCnt, blockCnt, cnt]
  exact regroup (fun b => if tg (ix1 b) = BitVec.ofNat 32 k.val then (1 : EReal) else 0)
theorem sm_halves (k : Fin 2048) : halfSm tg x 0 k + halfSm tg x 1 k = sm tg x k := by
  have key : ∀ b : Fin 131072, (if tg (ix1 b) = BitVec.ofNat 32 k.val then own tg x b else 0)
      = if tg (ix1 b) = BitVec.ofNat 32 k.val then x (ix2 b k) else 0 := by
    intro b
    split_ifs with h
    · exact own_of_hit tg x b k h
    · rfl
  simp only [halfSm, blockSm, sm, key]
  exact regroup (fun b => if tg (ix1 b) = BitVec.ofNat 32 k.val then x (ix2 b k) else 0)
theorem sq_halves (k : Fin 2048) : halfSq tg x 0 k + halfSq tg x 1 k = sq tg x k := by
  have key : ∀ b : Fin 131072, (if tg (ix1 b) = BitVec.ofNat 32 k.val then own tg x b * own tg x b else 0)
      = if tg (ix1 b) = BitVec.ofNat 32 k.val then x (ix2 b k) * x (ix2 b k) else 0 := by
    intro b
    split_ifs with h
    · rw [own_of_hit tg x b k h]
    · rfl
  simp only [halfSq, blockSq, sq, key]
  exact regroup (fun b => if tg (ix1 b) = BitVec.ofNat 32 k.val then x (ix2 b k) * x (ix2 b k) else 0)

/-- A row's word read as a signed integer is `k` exactly when it is the word of `k` (`k < 2048 < 2^31`). -/
theorem toInt_eq_iff (w : BitVec 32) (k : Fin 2048) : w.toInt = (k.val : Int) ↔ w = BitVec.ofNat 32 k.val := by
  have hk := k.isLt
  have hw := w.isLt
  constructor
  · intro h
    apply BitVec.eq_of_toNat_eq
    rw [BitVec.toNat_ofNat]
    rw [BitVec.toInt_eq_toNat_cond] at h
    split_ifs at h <;> omega
  · rintro rfl
    rw [BitVec.toInt_eq_toNat_cond, BitVec.toNat_ofNat]
    split_ifs <;> omega

/-- The coercion of a finite sum of reals is the sum of the coercions. -/
private theorem coe_sum {ι : Type*} (s : Finset ι) (g : ι → ℝ) :
    ((∑ b ∈ s, g b : ℝ) : EReal) = ∑ b ∈ s, (g b : EReal) := by
  classical
  induction s using Finset.induction_on with
  | empty => simp
  | insert a s ha ih => rw [Finset.sum_insert ha, Finset.sum_insert ha, EReal.coe_add, ih]

/-- The coercion is monotone, so it carries a maximum of reals to the maximum of the coercions. -/
private theorem coe_max (a b : ℝ) : ((max a b : ℝ) : EReal) = max (a : EReal) (b : EReal) :=
  EReal.coe_strictMono.monotone.map_max

/-- The variance identity over the reals: for a finite family `y` with `n` members, sum `s` and `μ = s / max n 1`,
    `∑ (y - μ)² = ∑ y² - 2 μ s + n μ²`; with members this is `∑ y² - n μ²`, not negative, and without members every sum is `0`. -/
private theorem real_var {ι : Type*} (S : Finset ι) (y : ι → ℝ) :
    max ((∑ b ∈ S, y b * y b) / max (S.card : ℝ) 1
          - (∑ b ∈ S, y b) / max (S.card : ℝ) 1 * ((∑ b ∈ S, y b) / max (S.card : ℝ) 1)) 0
      = (∑ b ∈ S, (y b - (∑ b ∈ S, y b) / max (S.card : ℝ) 1) * (y b - (∑ b ∈ S, y b) / max (S.card : ℝ) 1))
          / max (S.card : ℝ) 1 := by
  rcases S.eq_empty_or_nonempty with rfl | hne
  · simp
  · have hcard : (1 : ℝ) ≤ (S.card : ℝ) := by exact_mod_cast hne.card_pos
    rw [max_eq_left hcard]
    generalize hn : (S.card : ℝ) = n at hcard ⊢
    generalize hs : ∑ b ∈ S, y b = s
    have hn0 : n ≠ 0 := by linarith
    have hexp : ∑ b ∈ S, (y b - s / n) * (y b - s / n)
        = (∑ b ∈ S, y b * y b) - 2 * (s / n) * s + n * (s / n * (s / n)) := by
      have hterm : ∀ b, (y b - s / n) * (y b - s / n) = y b * y b - 2 * (s / n) * y b + s / n * (s / n) := by
        intro b
        ring
      simp only [hterm, Finset.sum_add_distrib, Finset.sum_sub_distrib, ← Finset.mul_sum, Finset.sum_const,
        nsmul_eq_mul, hs, hn]
      ring
    have hnonneg : 0 ≤ ∑ b ∈ S, (y b - s / n) * (y b - s / n) :=
      Finset.sum_nonneg (fun b _ => mul_self_nonneg _)
    have heq : (∑ b ∈ S, y b * y b) / n - s / n * (s / n)
        = (∑ b ∈ S, (y b - s / n) * (y b - s / n)) / n := by
      rw [hexp]
      field_simp
      ring
    rw [heq]
    exact max_eq_left (div_nonneg hnonneg (by linarith))

/-- The rows of class `k`. -/
private def rows (k : Fin 2048) : Finset (Fin 131072) :=
  Finset.univ.filter (fun b => tg (ix1 b) = BitVec.ofNat 32 k.val)

/-- The count of a class is the (real) number of its rows. -/
private theorem cnt_coe (k : Fin 2048) : cnt tg k = (((rows tg k).card : ℝ) : EReal) := by
  have h : ((rows tg k).card : ℝ) = ∑ b ∈ rows tg k, (1 : ℝ) := by
    rw [Finset.sum_const, nsmul_eq_mul, mul_one]
  rw [h, coe_sum, rows, Finset.sum_filter]
  rfl

/-- For real entries the class sum is the coercion of the real sum over the class's rows. -/
private theorem sm_coe (X : (⟨2, ![131072, 2048]⟩ : Shape).Idx → ℝ) (hX : ∀ i, x i = (X i : EReal)) (k : Fin 2048) :
    sm tg x k = ((∑ b ∈ rows tg k, X (ix2 b k) : ℝ) : EReal) := by
  rw [coe_sum, rows, Finset.sum_filter]
  simp only [sm, hX]

private theorem sq_coe (X : (⟨2, ![131072, 2048]⟩ : Shape).Idx → ℝ) (hX : ∀ i, x i = (X i : EReal)) (k : Fin 2048) :
    sq tg x k = ((∑ b ∈ rows tg k, X (ix2 b k) * X (ix2 b k) : ℝ) : EReal) := by
  rw [coe_sum, rows, Finset.sum_filter]
  simp only [sq, hX, EReal.coe_mul]

private theorem ssd_coe (X : (⟨2, ![131072, 2048]⟩ : Shape).Idx → ℝ) (hX : ∀ i, x i = (X i : EReal)) (μ : ℝ)
    (k : Fin 2048) :
    ssd tg x (μ : EReal) k = ((∑ b ∈ rows tg k, (X (ix2 b k) - μ) * (X (ix2 b k) - μ) : ℝ) : EReal) := by
  rw [coe_sum, rows, Finset.sum_filter]
  simp only [ssd, hX, EReal.coe_mul, EReal.coe_sub]

/-- THE VARIANCE IDENTITY. For real entries, with `n' = max (cnt k) 1` and `μ = sm k / n'`:
    `max (sq k / n' - μ * μ) 0 = ssd μ k / n'`. (A class with rows has `n' = cnt k`, and then
    `∑ (x - μ)² = ∑ x² - n μ²` is not negative; an empty class has both sides `0`.) -/
theorem var_eq (hx : ∀ i, ∃ r : ℝ, x i = (r : EReal)) (k : Fin 2048) :
    max (Ideal.div (sq tg x k) (max (cnt tg k) 1)
          - Ideal.div (sm tg x k) (max (cnt tg k) 1) * Ideal.div (sm tg x k) (max (cnt tg k) 1)) 0
      = Ideal.div (ssd tg x (Ideal.div (sm tg x k) (max (cnt tg k) 1)) k) (max (cnt tg k) 1) := by
  choose X hX using hx
  have hpos : max ((rows tg k).card : ℝ) 1 ≠ 0 := by
    have : (1 : ℝ) ≤ max ((rows tg k).card : ℝ) 1 := le_max_right _ _
    linarith
  have hdiv : ∀ a : ℝ, Ideal.div (a : EReal) (max (cnt tg k) 1) = ((a / max ((rows tg k).card : ℝ) 1 : ℝ) : EReal) := by
    intro a
    rw [cnt_coe, ← EReal.coe_one, ← coe_max, Ideal.div_coe hpos, ← EReal.coe_mul, mul_one_div]
  rw [sq_coe tg x X hX k, sm_coe tg x X hX k, hdiv, hdiv, ssd_coe tg x X hX _ k, hdiv,
    ← EReal.coe_mul, ← EReal.coe_sub, ← EReal.coe_zero, ← coe_max]
  exact congrArg _ (real_var (rows tg k) (fun b => X (ix2 b k)))

end Cert.Proof.ClassSums

end
-- ==== Proof.Tail.lean ====
/-
  What both programs do with the class sums, as functions of vectors over the 2048 classes, written ONCE with the
  operations both programs print: from the counts `n` and sums `s`,
    `nsafe n = max n 1`,  `bmean n s = s / nsafe n`,
    `newMean` = where `n > 0`: (where `count = 0`: the batch mean, else `0.9 · mean + 0.1 · batch mean`), else `mean`;
    `newVar`  = where `n > 0`: `max` (where `count = 0`: the batch variance, else `0.9 · var + 0.1 · batch variance`) `1e-12`,
                 else `var`;
    `newCount = count + (n as an integer)`;
  and the two forms of the batch variance: the kernel's `kvar = max (ss / nsafe n - bmean · bmean) 0` from the sums of
  squares, the reference's `rvar = ssd / nsafe n` from the sums of squared deviations. The literals are kept as their
  words: the two programs spell the same words.
-/
import Idealize.ShloMosaic.PureOps.Ideal

noncomputable section

namespace Cert.Proof.Tail

open Idealize.ShloMosaic

abbrev SK : Shape := ⟨1, ![2048]⟩
abbrev S0 : Shape := ⟨0, ![]⟩

variable (hb : S0.BroadcastsInDim SK (![] : Fin 0 → Fin SK.rank))

/-- The constant vector of a float word. -/
def lit (w : BitVec 32) : FVec Ideal SK .f32 := broadcastInDim SK ![] hb (constant (F := Ideal) S0 .f32 w)
/-- `max n 1`. -/
def nsafe (n : FVec Ideal SK .f32) : FVec Ideal SK .f32 := maximumf n (lit hb 0x3F800000#32)
/-- The batch mean `s / max n 1`. -/
def bmean (n s : FVec Ideal SK .f32) : FVec Ideal SK .f32 := Host.divf s (nsafe hb n)
/-- `count = 0`: the class has not been updated before. -/
def isFirst (count : IVec SK 32) : IVec SK 1 := cmpi .eq count (broadcastInDim SK ![] hb (constantI S0 32 0#32))
/-- `n > 0`: the class has rows in this batch. -/
def has (n : FVec Ideal SK .f32) : IVec SK 1 := cmpf (F := Ideal) .ogt n (lit hb 0x00000000#32)

def newMean (n s mean : FVec Ideal SK .f32) (count : IVec SK 32) : FVec Ideal SK .f32 :=
  select (has hb n)
    (select (isFirst hb count) (bmean hb n s)
      (addf (mulf (lit hb 0x3F666666#32) mean) (mulf (lit hb 0x3DCCCCCD#32) (bmean hb n s))))
    mean

def newVar (n bv var : FVec Ideal SK .f32) (count : IVec SK 32) : FVec Ideal SK .f32 :=
  select (has hb n)
    (maximumf
      (select (isFirst hb count) bv (addf (mulf (lit hb 0x3F666666#32) var) (mulf (lit hb 0x3DCCCCCD#32) bv)))
      (lit hb 0x2B8CBCCC#32))
    var

def newCount (n : FVec Ideal SK .f32) (count : IVec SK 32) : IVec SK 32 := addi count (fptosi (F := Ideal) 32 n)

/-- The kernel's batch variance, from the sums of squares. -/
def kvar (n s ss : FVec Ideal SK .f32) : FVec Ideal SK .f32 :=
  maximumf (subf (Host.divf ss (nsafe hb n)) (mulf (bmean hb n s) (bmean hb n s))) (lit hb 0x00000000#32)
/-- The reference's batch variance, from the sums of squared deviations. -/
def rvar (n ssd : FVec Ideal SK .f32) : FVec Ideal SK .f32 := Host.divf ssd (nsafe hb n)

end Cert.Proof.Tail

end
-- ==== Proof.RefValue.lean ====
/-
  The reference's three results as the shared tail of its class sums, and its class sums read at a class.

  The reference finds a row's own entry by a gather along the row at the row's class word (a negative word counted from
  the end, a word still outside the row answered by a filler), adds ones, own entries and squared deviations into the
  classes by three accumulating scatters at the RAW word (a word outside `[0, 2048)` is dropped), and reads the class
  mean back per row by a gather at the word. For a row that BELONGS to class `k` (its word is the word of `k`) the word is
  in range: the first gather reads `x (b, k)`, and the mean read back is the mean of class `k`. Rows that belong to no
  class are dropped by every scatter, so what the gathers read for them does not matter. Hence at class `k`:
  the count is `cnt k`, the sum `sm k`, and the sum of squared deviations `ssd (sm k / max (cnt k) 1) k`.
-/
import proofs.«407489_j87729001988667_3_alg».proof.Proof.RefRead
import proofs.«407489_j87729001988667_3_alg».proof.Proof.LibGatherScatter
import proofs.«407489_j87729001988667_3_alg».proof.Proof.ClassSums
import proofs.«407489_j87729001988667_3_alg».proof.Proof.Tail
import Idealize.ShloMosaic.Lib.IdealHost

open scoped BigOperators

noncomputable section

namespace Cert.ReferenceIdeal.RefValue

open Cert.ReferenceIdeal Cert.ReferenceIdeal.Gen Cert.ReferenceIdeal.ReadP Idealize.ShloMosaic Idealize.ShloMosaic.ValueIdx
open Cert.Proof

variable (x : (⟨S131072x2048, .f32⟩ : BufTy).Contents (Elt Ideal)) (tg : (⟨S131072, .i32⟩ : BufTy).Contents (Elt Ideal))
  (mean var : (⟨S2048, .f32⟩ : BufTy).Contents (Elt Ideal)) (count : (⟨S2048, .i32⟩ : BufTy).Contents (Elt Ideal))

/-- The new mean is the shared tail of the reference's counts and sums. -/
theorem out0_eq :
    val_main_v44 (F := Ideal) x tg mean count
      = Tail.newMean bcast_S_S2048 (val_main_v6 (F := Ideal) tg) (val_main_v9 (F := Ideal) x tg) mean count := by
  rfl

/-- The new variance is the shared tail of the reference's counts and its batch variance `ssd / max n 1`. -/
theorem out1_eq :
    val_main_v45 (F := Ideal) x tg var count
      = Tail.newVar bcast_S_S2048 (val_main_v6 (F := Ideal) tg)
          (Tail.rvar bcast_S_S2048 (val_main_v6 (F := Ideal) tg) (val_main_v24 (F := Ideal) x tg)) var count := by
  rfl

/-- The new count is the shared tail of the reference's counts. -/
theorem out2_eq :
    val_main_v47 (F := Ideal) tg count = Tail.newCount (val_main_v6 (F := Ideal) tg) count := by
  rfl

/-! ## The records and the index columns -/

/-- The reference's scatter record is the entry scatter: one inserted, scatter-indexed axis and no window. -/
private theorem scat_eq : scatter_S2048_S131072x1_S131072_n_0_0_1
    = GS.scat1 2048 131072 scatter_S2048_S131072x1_S131072_n_0_0_1_wf := rfl

/-- The reference's second gather record is the entry gather: the one axis collapsed and start-indexed. -/
private theorem gath_eq : gather_S2048_S131072x1_S131072_n_0_n_n_0_1_1
    = GS.gath1 2048 131072 gather_S2048_S131072x1_S131072_n_0_n_n_0_1_1_wf := rfl

/-- The column of class words, read at row `e`, is the row's class word (the count's scatter). -/
private theorem col_row (e : Fin 131072) : idx_main_v5 (ix2 e (0 : Fin 1)) = ix1 e := by
  funext a; match a with | ⟨0, _⟩ => rfl

/-- The same column for the sum's scatter. -/
private theorem col_row8 (e : Fin 131072) : idx_main_v8 (ix2 e (0 : Fin 1)) = ix1 e := by
  funext a; match a with | ⟨0, _⟩ => rfl

/-- The same column for the wrapped words the mean is read back at. -/
private theorem col_row18 (e : Fin 131072) : idx_main_v18 (ix2 e (0 : Fin 1)) = ix1 e := by
  funext a; match a with | ⟨0, _⟩ => rfl

/-- The same column for the squared deviations' scatter. -/
private theorem col_row23 (e : Fin 131072) : idx_main_v23 (ix2 e (0 : Fin 1)) = ix1 e := by
  funext a; match a with | ⟨0, _⟩ => rfl

/-- The word of a class, read signed, is the class number. -/
private theorem toInt_cls (k : Fin 2048) : (BitVec.ofNat 32 k.val).toInt = (k.val : Int) :=
  (ClassSums.toInt_eq_iff _ k).mpr rfl

/-- The word of a class is not negative. -/
private theorem cls_not_neg (k : Fin 2048) : IntOp.cmpi .slt (BitVec.ofNat 32 k.val) 0#32 = 0#1 :=
  eq_zero_of_ne_one (fun hc => by
    rw [IntOp.cmpi_slt, toInt_cls] at hc
    have : (0#32 : BitVec 32).toInt = 0 := rfl
    omega)

/-! ## The row gather at a row -/

/-- The batched gather along the rows at `(b, 0)`: row `b` of the operand (axis 0 is a batching axis, its coordinate the
    result's), at the column the index word at `(b, 0, 0)` names (axis 1 is collapsed and start-indexed), the word read
    signed and clamped into `[0, 2047]`. -/
private theorem gather_rows_apply {α : Type} (y : S131072x2048.Idx → α) (idx : IVec S131072x1x1 32) (b : Fin 131072) :
    Host.gather gather_S131072x2048_S131072x1x1_S131072x1_n_1_0_0_1_2_11 y idx (ix2 b (0 : Fin 1))
      = y (ix2 b (GS.row (N := 2048) (by decide) (idx (ix3 b (0 : Fin 1) (0 : Fin 1))))) := by
  unfold Host.gather
  congr 1
  funext a
  refine Fin.ext ?_
  match a with
  | ⟨0, _⟩ =>
    show gather_S131072x2048_S131072x1x1_S131072x1_n_1_0_0_1_2_11.start (ix2 b (0 : Fin 1)) idx 0
      + gather_S131072x2048_S131072x1x1_S131072x1_n_1_0_0_1_2_11.batchCoord (ix2 b (0 : Fin 1)) 0
      + gather_S131072x2048_S131072x1x1_S131072x1_n_1_0_0_1_2_11.offCoord (ix2 b (0 : Fin 1)) 0 = b.val
    have hb : (0 : Fin 2) ∈ gather_S131072x2048_S131072x1x1_S131072x1_n_1_0_0_1_2_11.operandBatchingDims :=
      show (0 : Fin 2) ∈ ([0] : List (Fin 2)) from List.mem_singleton.mpr rfl
    rw [GatherDims.start_batching _ _ _ _ hb,
      GatherDims.offCoord_eq_zero _ _ _ (fun h => ((GatherDims.mem_sKept _ _).mp h).2 hb)]
    unfold GatherDims.batchCoord
    rw [dif_pos hb]
    simp only [Nat.zero_add, Nat.add_zero]
    rfl
  | ⟨1, _⟩ =>
    show gather_S131072x2048_S131072x1x1_S131072x1_n_1_0_0_1_2_11.start (ix2 b (0 : Fin 1)) idx 1
      + gather_S131072x2048_S131072x1x1_S131072x1_n_1_0_0_1_2_11.batchCoord (ix2 b (0 : Fin 1)) 1
      + gather_S131072x2048_S131072x1x1_S131072x1_n_1_0_0_1_2_11.offCoord (ix2 b (0 : Fin 1)) 1 = _
    have hc : (1 : Fin 2) ∈ gather_S131072x2048_S131072x1x1_S131072x1_n_1_0_0_1_2_11.collapsedSliceDims :=
      show (1 : Fin 2) ∈ ([1] : List (Fin 2)) from List.mem_singleton.mpr rfl
    have hs : (1 : Fin 2) ∈ gather_S131072x2048_S131072x1x1_S131072x1_n_1_0_0_1_2_11.startIndexMap :=
      show (1 : Fin 2) ∈ ([1] : List (Fin 2)) from List.mem_singleton.mpr rfl
    rw [GatherDims.batchCoord_eq_zero _ _ _ (show (1 : Fin 2) ∉ ([0] : List (Fin 2)) by decide),
      GatherDims.offCoord_eq_zero _ _ _ (fun h => ((GatherDims.mem_sKept _ _).mp h).1 hc)]
    unfold GatherDims.start
    rw [dif_pos hs]
    show min (idx _).toInt.toNat (2048 - 1) = min (idx (ix3 b (0 : Fin 1) (0 : Fin 1))).toInt.toNat (2048 - 1)
    congr 3
    congr 1
    funext c
    refine Fin.ext ?_
    match c with
    | ⟨0, _⟩ => rfl
    | ⟨1, _⟩ => rfl
    | ⟨2, _⟩ => rfl

/-! ## A row's own entry -/

/-- A row of class `k`: the index word the row gather reads is the class word itself (it is not negative, so `2048` is
    not added to it). -/
private theorem word_of_hit (b : Fin 131072) (k : Fin 2048) (h : tg (ix1 b) = BitVec.ofNat 32 k.val) :
    val_main_call0_v5 (F := Ideal) tg (ix3 b (0 : Fin 1) (0 : Fin 1)) = BitVec.ofNat 32 k.val := by
  have e5 : idx_main_call0_v5 (ix3 b (0 : Fin 1) (0 : Fin 1)) = ix2 b (0 : Fin 1) := by
    funext a
    match a with
    | ⟨0, _⟩ => exact Fin.ext (by show ((b.val * 1 + 0) * 1 + 0) / 1 = b.val; omega)
    | ⟨1, _⟩ => rfl
  have e0 : idx_main_v0 (ix2 b (0 : Fin 1)) = ix1 b := by
    funext a; match a with | ⟨0, _⟩ => rfl
  rw [val_main_call0_v5_apply, e5, val_main_call0_v4_apply, val_main_call0_v1_apply, val_main_v0_apply, e0, h,
    val_main_call0_v0_apply, val_main_call0_c_apply, cls_not_neg, select_zero]

private theorem reduces_d2 : S131072x1x1.Reduces [2] S131072x1 := by decide

/-- The result index `(b, 0)` with the coordinate `0` put back on the reduced axis is `(b, 0, 0)`. -/
private theorem lift_d2 (b : Fin 131072) :
    reduces_d2.lift (ix2 b (0 : Fin 1)) (0 : Fin 1) = ix3 b (0 : Fin 1) (0 : Fin 1) := by
  funext c
  refine Fin.ext ?_
  match c with
  | ⟨0, _⟩ => rfl
  | ⟨1, _⟩ => rfl
  | ⟨2, _⟩ => rfl

/-- A fold over the one coordinate of an axis of extent 1 applies the operation once. -/
private theorem fold_fin1 {β : Type} (op : β → β → β) [Std.Commutative op] [Std.Associative op] (init : β)
    (g : Fin 1 → β) : (Finset.univ : Finset (Fin 1)).fold op init g = op (g 0) init := by
  rw [show (Finset.univ : Finset (Fin 1)) = {0} from rfl, Finset.fold_singleton]

/-- The and-reduce over an axis of extent 1, at `(b, 0)`: the one element it folds, under the initial `1`. -/
private theorem inb_apply (b : Fin 131072) :
    val_main_call0_v12 (F := Ideal) tg (ix2 b (0 : Fin 1))
      = IntOp.andi (val_main_call0_v11 (F := Ideal) tg (ix3 b (0 : Fin 1) (0 : Fin 1))) 1#1 := by
  unfold val_main_call0_v12
  rw [Host.reduce_eq_fold_single IntOp.andi _ _ reducesTo_S131072x1x1_S131072x1_d2 reduces_d2 h_S_]
  refine (fold_fin1 IntOp.andi _ _).trans ?_
  exact congrArg (fun j => IntOp.andi (val_main_call0_v11 (F := Ideal) tg j) 1#1) (lift_d2 b)

/-- A row of class `k`: its index word lies in `[0, 2047]`, so the row's in-bounds bit is set. -/
private theorem inb_of_hit (b : Fin 131072) (k : Fin 2048) (h : tg (ix1 b) = BitVec.ofNat 32 k.val) :
    val_main_call0_v12 (F := Ideal) tg (ix2 b (0 : Fin 1)) = 1#1 := by
  have h1 : IntOp.cmpi .sge (BitVec.ofNat 32 k.val) 0#32 = 1#1 :=
    IntOp.cmpi_sge.mpr (by
      rw [toInt_cls]
      have : (0#32 : BitVec 32).toInt = 0 := rfl
      omega)
  have h2 : IntOp.cmpi .sle (BitVec.ofNat 32 k.val) 2047#32 = 1#1 :=
    IntOp.cmpi_sle.mpr (by
      rw [toInt_cls]
      have : (2047#32 : BitVec 32).toInt = 2047 := by decide
      have := k.isLt
      omega)
  rw [inb_apply, val_main_call0_v11_apply, val_main_call0_v7_apply, val_main_call0_v10_apply, word_of_hit tg b k h,
    val_main_call0_v6_apply, val_main_call0_c_2_apply, val_main_call0_v9_apply, val_main_call0_v8_apply,
    val_main_call0_c_1_apply, h1, h2]
  rfl

/-- A row of class `k`: the reference's own entry of the row is `x (b, k)` (the in-bounds bit is set, so the filler
    is not taken; the gather's clamp leaves `k` alone). -/
private theorem own_ref_of_hit (b : Fin 131072) (k : Fin 2048) (h : tg (ix1 b) = BitVec.ofNat 32 k.val) :
    val_main_v2 (F := Ideal) x tg (ix1 b) = x (ix2 b k) := by
  have e2 : idx_main_v2 (ix1 b) = ix2 b (0 : Fin 1) := by
    funext a
    match a with
    | ⟨0, _⟩ => exact Fin.ext (Nat.div_one _)
    | ⟨1, _⟩ => rfl
  rw [val_main_v2_apply, e2, val_main_v1_apply, inb_of_hit tg b k h, select_one]
  unfold val_main_call0_v13
  rw [gather_rows_apply, word_of_hit tg b k h, GS.row_of_toInt _ _ k (toInt_cls k)]

/-! ## The class sums at a class -/

/-- The reference's count of class `k`. -/
theorem n_apply (k : Fin 2048) : val_main_v6 (F := Ideal) tg (ix1 k) = ClassSums.cnt tg k := by
  unfold val_main_v6
  rw [scat_eq, GS.scatterAdd_scat1_apply, val_main_v4_apply, val_main_cst_0_apply]
  simp only [val_main_v5_apply, val_main_v3_apply, val_main_cst_apply, col_row, ClassSums.toInt_eq_iff,
    Ideal.ofBits_def, Ideal.ofBits_zero_f32, Ideal.ofBits_one_f32, zero_add]
  rw [Finset.sum_filter]
  rfl

/-- The reference's sum of class `k`. -/
theorem s_apply (k : Fin 2048) : val_main_v9 (F := Ideal) x tg (ix1 k) = ClassSums.sm tg x k := by
  unfold val_main_v9
  rw [scat_eq, GS.scatterAdd_scat1_apply, val_main_v7_apply, val_main_cst_1_apply]
  simp only [val_main_v8_apply, col_row8, ClassSums.toInt_eq_iff, Ideal.ofBits_def, Ideal.ofBits_zero_f32, zero_add]
  rw [Finset.sum_congr rfl (fun e he => own_ref_of_hit x tg e k (Finset.mem_filter.mp he).2), Finset.sum_filter]
  rfl

/-- The class mean the reference subtracts, at class `k`: `sm k / max (cnt k) 1`. -/
private theorem mean_apply (k : Fin 2048) :
    val_main_v12 (F := Ideal) x tg (ix1 k) = Ideal.div (ClassSums.sm tg x k) (max (ClassSums.cnt tg k) 1) := by
  rw [val_main_v12_apply, val_main_v11_apply, s_apply, n_apply, val_main_v10_apply, val_main_cst_2_apply]
  simp only [Ideal.ofBits_def, Ideal.ofBits_one_f32, Ideal.hostDivf_def, Ideal.maximumf_def]

/-- A row of class `k` reads back the mean of class `k`: its word is not negative, so it is not wrapped, and the
    gather's clamp leaves `k` alone. -/
private theorem mean_of_hit (b : Fin 131072) (k : Fin 2048) (h : tg (ix1 b) = BitVec.ofNat 32 k.val) :
    val_main_v19 (F := Ideal) x tg (ix1 b) = Ideal.div (ClassSums.sm tg x k) (max (ClassSums.cnt tg k) 1) := by
  have hw : val_main_v18 (F := Ideal) tg (ix2 b (0 : Fin 1)) = BitVec.ofNat 32 k.val := by
    rw [val_main_v18_apply, col_row18, val_main_v17_apply, val_main_v14_apply, h, val_main_v13_apply,
      val_main_c_apply, cls_not_neg, select_zero]
  unfold val_main_v19
  rw [gath_eq, GS.gather_gath1_apply (by decide), hw, GS.row_of_toInt _ _ k (toInt_cls k), mean_apply]

/-- The reference's sum of squared deviations of class `k`, from the class mean `sm k / max (cnt k) 1`. -/
theorem ssd_apply (k : Fin 2048) :
    val_main_v24 (F := Ideal) x tg (ix1 k)
      = ClassSums.ssd tg x (Ideal.div (ClassSums.sm tg x k) (max (ClassSums.cnt tg k) 1)) k := by
  have hdev : ∀ e : Fin 131072, tg (ix1 e) = BitVec.ofNat 32 k.val →
      val_main_v21 (F := Ideal) x tg (ix1 e)
        = (x (ix2 e k) - Ideal.div (ClassSums.sm tg x k) (max (ClassSums.cnt tg k) 1))
          * (x (ix2 e k) - Ideal.div (ClassSums.sm tg x k) (max (ClassSums.cnt tg k) 1)) := by
    intro e he
    rw [val_main_v21_apply, val_main_v20_apply, own_ref_of_hit x tg e k he, mean_of_hit x tg e k he]
    rfl
  unfold val_main_v24
  rw [scat_eq, GS.scatterAdd_scat1_apply, val_main_v22_apply, val_main_cst_4_apply]
  simp only [val_main_v23_apply, col_row23, ClassSums.toInt_eq_iff, Ideal.ofBits_def, Ideal.ofBits_zero_f32, zero_add]
  rw [Finset.sum_congr rfl (fun e he => hdev e (Finset.mem_filter.mp he).2), Finset.sum_filter]
  rfl

end Cert.ReferenceIdeal.RefValue

end
-- ==== Proof.KernelValue.lean ====
/-
  The idealized kernel's run with its three results NAMED: the shared tail of the class sums the region leaves.

  When the region ends, each of the three output arrays (4096 entries: two halves of 2048) holds the two halves' sums.
  The lines after the region view each array as 2 rows of 2048 and add the rows (`halves`), and from there on compute the
  new mean, the new variance (through the kernel's form of the batch variance) and the new count: the shared tail.
-/
import proofs.«407489_j87729001988667_3_alg».proof.Proof.Gen.KernelIdeal.Frame
import proofs.«407489_j87729001988667_3_alg».proof.Proof.Tail
import Idealize.ShloMosaic.Lib.StableHlo.Run
import Idealize.ShloMosaic.Lib.Pipeline.Value
import Idealize.ShloMosaic.PureOps.Ideal

noncomputable section

namespace Cert.KernelIdeal.KValue

open Cert.KernelIdeal Cert.KernelIdeal.Gen Idealize.ShloMosaic Idealize.ShloMosaic.TcCoe Idealize.SL.Sem
open Idealize.ShloMosaic.StableHlo
open Idealize.ShloMosaic.Pipeline (Dat)
open Cert.Proof

variable (m : (ℓ : Loc nD τ sig) → Buf (Elt Ideal) ℓ) (ρ : Dev nD → PrngReg)

/-- The two halves of an output array added: the array viewed as 2 rows of 2048, the rows summed from zero. -/
def halves (a : Vec Ideal S4096 .f32) : FVec Ideal S2048 .f32 :=
  Host.reduceAdd (F := Ideal) (shapeCast S2x2048 a shapeCasts_S4096_S2x2048) (constant (F := Ideal) S_ .f32 0x00000000#32)
    reducesTo_S2x2048_S2048_d0 h_S_

/-- Output array `w` when the region ends. -/
abbrev arr (c : Dev nD) (w : Fin 5) := (dats m 0 c).arrAt w cfg0.N

/-- The class counts, sums and sums of squares the lines after the region start from. -/
abbrev nK (c : Dev nD) : FVec Ideal S2048 .f32 := halves (arr m c 2)
abbrev sK (c : Dev nD) : FVec Ideal S2048 .f32 := halves (arr m c 3)
abbrev ssK (c : Dev nD) : FVec Ideal S2048 .f32 := halves (arr m c 4)

/-- What the lines after the region leave in buffer `b`. -/
abbrev tailOf (c : Dev nD) (b : Ref sig .tc) : Buf (Elt Ideal) ((c.tc : Thread nD τ).loc b) :=
  Pipeline.afterTail₀ cfgs (dats m) 0 (V0 m) [hostOps1, hostOps1_1, hostOps1_2, hostOps1_3, hostOps1_4, hostOps1_5, hostOps1_6, hostOps1_7] c b

/-- After the region the three output arrays are what the region left … -/
theorem wa2 (c : Dev nD) : Pipeline.withArrays (cfgs 0).spec c (V0 m c) (fun w => (dats m 0 c).arrAt w (cfgs 0).N)
    (Proc.devRef .tc main_v0_0) = (dats m 0 c).arrAt 2 cfg0.N :=
  Pipeline.withArrays_arr spec0 launch0.win.arr_inj c _ _ 2
theorem wa3 (c : Dev nD) : Pipeline.withArrays (cfgs 0).spec c (V0 m c) (fun w => (dats m 0 c).arrAt w (cfgs 0).N)
    (Proc.devRef .tc main_v0_1) = (dats m 0 c).arrAt 3 cfg0.N :=
  Pipeline.withArrays_arr spec0 launch0.win.arr_inj c _ _ 3
theorem wa4 (c : Dev nD) : Pipeline.withArrays (cfgs 0).spec c (V0 m c) (fun w => (dats m 0 c).arrAt w (cfgs 0).N)
    (Proc.devRef .tc main_v0_2) = (dats m 0 c).arrAt 4 cfg0.N :=
  Pipeline.withArrays_arr spec0 launch0.win.arr_inj c _ _ 4
/-- … and the argument arrays the region does not stage are as launched. -/
theorem wb2 (c : Dev nD) : Pipeline.withArrays (cfgs 0).spec c (V0 m c) (fun w => (dats m 0 c).arrAt w (cfgs 0).N)
    (Proc.devRef .tc main_arg2) = m ((c.tc : Thread nD τ).loc main_arg2) :=
  (Pipeline.withArrays_of_ne spec0 c (V0 m c) _ main_arg2 (by decide)).trans (V_main_arg2 m c)
theorem wb3 (c : Dev nD) : Pipeline.withArrays (cfgs 0).spec c (V0 m c) (fun w => (dats m 0 c).arrAt w (cfgs 0).N)
    (Proc.devRef .tc main_arg3) = m ((c.tc : Thread nD τ).loc main_arg3) :=
  (Pipeline.withArrays_of_ne spec0 c (V0 m c) _ main_arg3 (by decide)).trans (V_main_arg3 m c)
theorem wb4 (c : Dev nD) : Pipeline.withArrays (cfgs 0).spec c (V0 m c) (fun w => (dats m 0 c).arrAt w (cfgs 0).N)
    (Proc.devRef .tc main_arg4) = m ((c.tc : Thread nD τ).loc main_arg4) :=
  (Pipeline.withArrays_of_ne spec0 c (V0 m c) _ main_arg4 (by decide)).trans (V_main_arg4 m c)

end Cert.KernelIdeal.KValue

end
-- ==== Proof.KTailCount.lean ====
/-
  The lines after the region leave, as the third result, the class counts (as integers) added to the old counts:
  the shared tail's `newCount` of the two halves' counts.
-/
import proofs.«407489_j87729001988667_3_alg».proof.Proof.KernelValue

noncomputable section

namespace Cert.KernelIdeal.KValue

open Cert.KernelIdeal Cert.KernelIdeal.Gen Idealize.ShloMosaic Idealize.ShloMosaic.TcCoe Idealize.SL.Sem
open Idealize.ShloMosaic.StableHlo
open Idealize.ShloMosaic.Pipeline (Dat)
open Cert.Proof

variable (m : (ℓ : Loc nD τ sig) → Buf (Elt Ideal) ℓ) (ρ : Dev nD → PrngReg)

set_option maxHeartbeats 4000000 in
/-- The new count. -/
theorem tail_count (c : Dev nD) :
    tailOf m c main_v36 = Tail.newCount (nK m c) (m ((c.tc : Thread nD τ).loc main_arg4)) := by
  unfold tailOf Pipeline.afterTail₀
  simp only [hostOps1, hostOps1_1, hostOps1_2, hostOps1_3, hostOps1_4, hostOps1_5, hostOps1_6, hostOps1_7, List.flatten_cons, List.flatten_nil, List.append_nil, List.cons_append, List.nil_append]
  show StableHlo.after _ _ (Proc.devRef .tc main_v36) = _
  after_results
  rw [wa2, wb4]
  rfl

end Cert.KernelIdeal.KValue

end
-- ==== Proof.KTailMean.lean ====
/-
  The lines after the region leave, as the first result, the shared tail's `newMean` of the two halves' counts and sums.
-/
import proofs.«407489_j87729001988667_3_alg».proof.Proof.KernelValue

noncomputable section

namespace Cert.KernelIdeal.KValue

open Cert.KernelIdeal Cert.KernelIdeal.Gen Idealize.ShloMosaic Idealize.ShloMosaic.TcCoe Idealize.SL.Sem
open Idealize.ShloMosaic.StableHlo
open Idealize.ShloMosaic.Pipeline (Dat)
open Cert.Proof

variable (m : (ℓ : Loc nD τ sig) → Buf (Elt Ideal) ℓ) (ρ : Dev nD → PrngReg)

set_option maxHeartbeats 8000000 in
/-- The new mean. -/
theorem tail_mean (c : Dev nD) :
    tailOf m c main_v33 = Tail.newMean bcast_S_S2048 (nK m c) (sK m c) (m ((c.tc : Thread nD τ).loc main_arg2))
      (m ((c.tc : Thread nD τ).loc main_arg4)) := by
  unfold tailOf Pipeline.afterTail₀
  simp only [hostOps1, hostOps1_1, hostOps1_2, hostOps1_3, hostOps1_4, hostOps1_5, hostOps1_6, hostOps1_7, List.flatten_cons, List.flatten_nil, List.append_nil, List.cons_append, List.nil_append]
  show StableHlo.after _ _ (Proc.devRef .tc main_v33) = _
  after_results
  rw [wa2, wa3, wb2, wb4]
  simp only [TRef.ofBuf, TRef.toBuf, cast_eq]
  rfl

end Cert.KernelIdeal.KValue

end
-- ==== Proof.KTailVar.lean ====
/-
  The lines after the region leave, as the second result, the shared tail's `newVar` of the two halves' counts and of the
  kernel's form of the batch variance (from the counts, the sums and the sums of squares).
-/
import proofs.«407489_j87729001988667_3_alg».proof.Proof.KernelValue

noncomputable section

namespace Cert.KernelIdeal.KValue

open Cert.KernelIdeal Cert.KernelIdeal.Gen Idealize.ShloMosaic Idealize.ShloMosaic.TcCoe Idealize.SL.Sem
open Idealize.ShloMosaic.StableHlo
open Idealize.ShloMosaic.Pipeline (Dat)
open Cert.Proof

variable (m : (ℓ : Loc nD τ sig) → Buf (Elt Ideal) ℓ) (ρ : Dev nD → PrngReg)

set_option maxHeartbeats 16000000 in
/-- The new variance. -/
theorem tail_var (c : Dev nD) :
    tailOf m c main_v34 = Tail.newVar bcast_S_S2048 (nK m c)
      (Tail.kvar bcast_S_S2048 (nK m c) (sK m c) (ssK m c)) (m ((c.tc : Thread nD τ).loc main_arg3))
      (m ((c.tc : Thread nD τ).loc main_arg4)) := by
  unfold tailOf Pipeline.afterTail₀
  simp only [hostOps1, hostOps1_1, hostOps1_2, hostOps1_3, hostOps1_4, hostOps1_5, hostOps1_6, hostOps1_7, List.flatten_cons, List.flatten_nil, List.append_nil, List.cons_append, List.nil_append]
  show StableHlo.after _ _ (Proc.devRef .tc main_v34) = _
  after_results
  rw [wa2, wa3, wa4, wb3, wb4]
  simp only [TRef.ofBuf, TRef.toBuf, cast_eq]
  rfl

end Cert.KernelIdeal.KValue

end
-- ==== Proof.KernelRun.lean ====
/-
  The idealized kernel's run with its results named: every weakly fair execution ends with the three results at the shared
  tail of the class sums the region leaves (the two halves of each output array added), and the arguments unchanged.
  It is the generated frame run, its post read at the three result buffers (what the lines after the region leave
  there) and at the argument arrays.
-/
import proofs.«407489_j87729001988667_3_alg».proof.Proof.KernelValue
import proofs.«407489_j87729001988667_3_alg».proof.Proof.KTailCount
import proofs.«407489_j87729001988667_3_alg».proof.Proof.KTailMean
import proofs.«407489_j87729001988667_3_alg».proof.Proof.KTailVar

noncomputable section

namespace Cert.KernelIdeal.KValue

open Cert.KernelIdeal Cert.KernelIdeal.Gen Idealize.ShloMosaic Idealize.ShloMosaic.TcCoe Idealize.SL.Sem
open Idealize.ShloMosaic.StableHlo
open Idealize.ShloMosaic.Pipeline (Dat)
open Cert.Proof

variable (m : (ℓ : Loc nD τ sig) → Buf (Elt Ideal) ℓ) (ρ : Dev nD → PrngReg)

/-- The run, read at the results and the arguments. -/
theorem run : θ_run defs (onTc (τ := τ) (main (F := Ideal))) ⟨m, fun _ => 0, ρ⟩ fun r => ∀ c : Dev nD,
      r.2.mem ((c.tc : Thread nD τ).loc main_v33)
          = Tail.newMean bcast_S_S2048 (nK m c) (sK m c) (m ((c.tc : Thread nD τ).loc main_arg2))
              (m ((c.tc : Thread nD τ).loc main_arg4))
      ∧ r.2.mem ((c.tc : Thread nD τ).loc main_v34)
          = Tail.newVar bcast_S_S2048 (nK m c) (Tail.kvar bcast_S_S2048 (nK m c) (sK m c) (ssK m c))
              (m ((c.tc : Thread nD τ).loc main_arg3)) (m ((c.tc : Thread nD τ).loc main_arg4))
      ∧ r.2.mem ((c.tc : Thread nD τ).loc main_v36) = Tail.newCount (nK m c) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨
      ((h c).2 main_v33 (Pipeline.mem_restRefs_of main_v33 (by decide) (by decide))).trans (tail_mean m c),
      ((h c).2 main_v34 (Pipeline.mem_restRefs_of main_v34 (by decide) (by decide))).trans (tail_var m c),
      ((h c).2 main_v36 (Pipeline.mem_restRefs_of main_v36 (by decide) (by decide))).trans (tail_count m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KValue

end
-- ==== Proof.LibRows.lean ====
/-
  Layout operations, a one-axis reduction and a plain matrix product READ AT AN INDEX GIVEN BY COORDINATES, in the forms
  the body of a row-blocked kernel meets: a column `[a, 1]` broadcast over the lanes, a vector `[a]` viewed as a column
  `[a, 1]`, the index a reduction over the lane axis inserts, the lane sum and the lane maximum of a row, and the
  product of an `[M, K]` by a `[K, N]` matrix into the zero accumulator. Then the three row-wise bodies built from them:
  the scaled product, the scaled and shifted block, and the row-wise log-softmax of it. Everything is stated over generic
  extents with indices written `ix1` / `ix2`; no program is imported.
-/
import Idealize.ShloMosaic.PureOps.Ideal.Laws
import Idealize.ShloMosaic.Lib.ValueIdx
import Idealize.ShloMosaic.Lib.ValueLayout

open scoped BigOperators

namespace Cert.Proof.LibRows

open Idealize.ShloMosaic Idealize.ShloMosaic.ValueIdx

section Layout
variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The source index a reduction of `[a, b]` over its lane axis inserts over row `r` at lane `k` is `(r, k)`. -/
theorem lift_lane {a b : ℕ} (h : (⟨2, ![a, b]⟩ : Shape).Reduces [1] ⟨1, ![a]⟩) (r : Fin a) (k : Fin b) :
    h.lift (ix1 r) k = ix2 r k :=
  funext fun c => Fin.ext (match c with | ⟨0, _⟩ => rfl | ⟨1, _⟩ => rfl)

end Layout

/-! ## A reduction over the lane axis, read at a row -/

section Reduce

/-- The lane sum of an `[a, b]` block at row `r` is the sum over the lanes of the row's entries. -/
theorem multiReduction_add_lane {a b : ℕ} (src : FVec Ideal ⟨2, ![a, b]⟩ .f32) (acc : BitVec FTy.f32.bits)
    (h : (⟨2, ![a, b]⟩ : Shape).Reduces [1] ⟨1, ![a]⟩) (hφ : FKind.Formats .f32) (hacc : acc = FKind.add.neutral .f32 hφ)
    (r : Fin a) :
    multiReduction (F := Ideal) .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_lane h r k))

/-- The lane maximum of an `[a, b]` block at row `r` is the fold of `max`, from the accumulator's value, over the lanes
    of the row's entries. -/
theorem multiReduction_maximumf_lane {a b : ℕ} (src : FVec Ideal ⟨2, ![a, b]⟩ .f32) (acc : BitVec FTy.f32.bits)
    (h : (⟨2, ![a, b]⟩ : Shape).Reduces [1] ⟨1, ![a]⟩) (hφ : FKind.Formats .f32)
    (hacc : acc = FKind.maximumf.neutral .f32 hφ) (r : Fin a) :
    multiReduction (F := Ideal) .maximumf [1] ⟨1, ![a]⟩ src acc h hφ hacc (ix1 r)
      = (Finset.univ : Finset (Fin b)).fold max (Ideal.ofBits .f32 acc) (fun k => src (ix2 r k)) :=
  (Ideal.multiReduction_maximumf_single src acc h hφ hacc (ix1 r)).trans
    (congrArg (fun f : Fin b → EReal => (Finset.univ : Finset (Fin b)).fold max (Ideal.ofBits .f32 acc) f)
      (funext fun k => congrArg src (lift_lane h r k)))

end Reduce

/-! ## The plain matrix product, read at `(r, q)` -/

section Product
variable {M K N : ℕ}

/-- On the left operand's row axis the operand index is the output's row … -/
theorem plain_lhs_0 (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … on its contracted axis the contraction index's one coordinate … -/
theorem plain_lhs_1 (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k
/-- … and on the right operand's contracted axis the same coordinate … -/
theorem plain_rhs_0 (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k
/-- … on its column axis the output's column. -/
theorem plain_rhs_1 (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The product of an `[M, K]` by a `[K, N]` matrix into the zero accumulator, read at `(r, q)`: the sum over `k` of the
    left operand's row `r` times the right operand's column `q`, exactly (no rounding at the ideal values). -/
theorem matmul_plain_zero_apply (prec : Option ContractPrecision) (x : FVec Ideal ⟨2, ![M, K]⟩ .f32)
    (W : FVec Ideal ⟨2, ![K, N]⟩ .f32) (r : Fin M) (q : Fin N) :
    FloatOps.matmul (DotDims.plain M K N) prec x W (constant (F := Ideal) ⟨2, ![M, N]⟩ .f32 0x00000000#32) (ix2 r q)
      = ∑ k : Fin K, x (ix2 r k) * W (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r q) ((contrEquiv1 (DotDims.plain M K N) K rfl rfl).symm k) = ix2 r k :=
    funext fun a => Fin.ext (by
      match a with
      | ⟨0, _⟩ => exact plain_lhs_0 _ _
      | ⟨1, _⟩ => exact (plain_lhs_1 _ _).trans hk)
  have er : (DotDims.plain M K N).rhsIdx (ix2 r q) ((contrEquiv1 (DotDims.plain M K N) K rfl rfl).symm k) = ix2 k q :=
    funext fun a => Fin.ext (by
      match a with
      | ⟨0, _⟩ => exact (plain_rhs_0 _ _).trans hk
      | ⟨1, _⟩ => exact plain_rhs_1 _ _)
  rw [el, er]

end Product

/-! ## The exponential and the logarithm of a vector, read at an index (definitional at the ideal values) -/

section Pointwise
variable {s : Shape} {φ : FTy}

/-- An exponential at an index is the exponential of the element. -/
theorem exp_apply (x : FVec Ideal s φ) (i : s.Idx) : exp x i = Ideal.exp (x i) := rfl
/-- A logarithm at an index is the logarithm of the element. -/
theorem log_apply (x : FVec Ideal s φ) (i : s.Idx) : log x i = Ideal.log (x i) := rfl

end Pointwise

/-! ## Three row-wise bodies, read at `(r, q)` -/

section Bodies

/-- THE SCALED PRODUCT: an `[M, K]` block times a `[K, N]` matrix into the zero accumulator, each row then scaled by its
    entry of an `[M, 1]` column broadcast over the lanes. At `(r, q)` it is the row sum times the column's entry of row `r`:
    a function of row `r` of the block and of the column only. -/
theorem scaledProduct_apply {M K N : ℕ} (prec : Option ContractPrecision) (x : FVec Ideal ⟨2, ![M, K]⟩ .f32)
    (W : FVec Ideal ⟨2, ![K, N]⟩ .f32) (s : FVec Ideal ⟨2, ![M, 1]⟩ .f32)
    (hc : (⟨2, ![M, 1]⟩ : Shape).ShapeCasts ⟨2, ![M, 1]⟩) (hb : (⟨2, ![M, 1]⟩ : Shape).Broadcasts ⟨2, ![M, N]⟩)
    (r : Fin M) (q : Fin N) :
    mulf (matmul (DotDims.plain M K N) prec x W (constant (F := Ideal) ⟨2, ![M, N]⟩ .f32 0x00000000#32))
        (broadcastTo ⟨2, ![M, N]⟩ (shapeCast ⟨2, ![M, 1]⟩ s hc) hb) (ix2 r q)
      = (∑ k : Fin K, x (ix2 r k) * W (ix2 k q)) * s (ix2 r (0 : Fin 1)) := by
  rw [mulf_apply, broadcastTo_a1_ab_apply, shapeCast_self]
  exact congrArg (· * s (ix2 r (0 : Fin 1))) (matmul_plain_zero_apply prec x W r q)

/-- THE SCALED AND SHIFTED BLOCK: an `[a, b]` block, each row scaled by its entry of an `[a, 1]` column and shifted by a
    `[1, b]` row, both broadcast. At `(r, q)` it is `v (r, q) * s (r, 0) + β (0, q)`. -/
theorem scaleShift_apply {a b : ℕ} (v : FVec Ideal ⟨2, ![a, b]⟩ .f32) (s : FVec Ideal ⟨2, ![a, 1]⟩ .f32)
    (β : FVec Ideal ⟨2, ![1, b]⟩ .f32)
    (h0 : (⟨2, ![a, b]⟩ : Shape).ShapeCasts ⟨2, ![a, b]⟩) (h1 : (⟨2, ![a, 1]⟩ : Shape).ShapeCasts ⟨2, ![a, 1]⟩)
    (h2 : (⟨2, ![a, 1]⟩ : Shape).Broadcasts ⟨2, ![a, b]⟩) (h3 : (⟨2, ![1, b]⟩ : Shape).ShapeCasts ⟨2, ![1, b]⟩)
    (h4 : (⟨2, ![1, b]⟩ : Shape).Broadcasts ⟨2, ![a, b]⟩) (r : Fin a) (q : Fin b) :
    addf (mulf (shapeCast ⟨2, ![a, b]⟩ v h0) (broadcastTo ⟨2, ![a, b]⟩ (shapeCast ⟨2, ![a, 1]⟩ s h1) h2))
        (broadcastTo ⟨2, ![a, b]⟩ (shapeCast ⟨2, ![1, b]⟩ β h3) h4) (ix2 r q)
      = v (ix2 r q) * s (ix2 r (0 : Fin 1)) + β (ix2 (0 : Fin 1) q) := by
  rw [addf_apply, mulf_apply, broadcastTo_a1_ab_apply, broadcastTo_1b_ab_apply, shapeCast_self, shapeCast_self,
    shapeCast_self]

/-- THE ROW-WISE LOG-SOFTMAX of an `[a, b]` block `v`: with `m` the lane maximum of a row (kept as a column and
    broadcast back) and `z = v - m`, the body is `z - log (lane sum of exp z)`. Whatever row `r` of `v` is known to be
    (`hv`), at `(r, q)` it is `(f q - m) - log (∑ j, exp (f j - m))` with `m` the fold of `max` over `f` from the
    accumulator's value: a function of row `r` only. -/
theorem logSoftmax_apply {a b : ℕ} (v : FVec Ideal ⟨2, ![a, b]⟩ .f32)
    (hr : (⟨2, ![a, b]⟩ : Shape).Reduces [1] ⟨1, ![a]⟩) (hφ hφ' : FKind.Formats .f32)
    (hm : (0xFF800000#32 : BitVec FTy.f32.bits) = FKind.maximumf.neutral .f32 hφ)
    (hs : (0x00000000#32 : BitVec FTy.f32.bits) = FKind.add.neutral .f32 hφ')
    (hc : (⟨1, ![a]⟩ : Shape).ShapeCasts ⟨2, ![a, 1]⟩) (hb : (⟨2, ![a, 1]⟩ : Shape).Broadcasts ⟨2, ![a, b]⟩)
    (r : Fin a) (q : Fin b) (f : Fin b → EReal) (hv : ∀ k, v (ix2 r k) = f k) :
    subf (subf v (broadcastTo ⟨2, ![a, b]⟩
            (shapeCast ⟨2, ![a, 1]⟩ (multiReduction (F := Ideal) .maximumf [1] ⟨1, ![a]⟩ v 0xFF800000#32 hr hφ hm) hc) hb))
        (broadcastTo ⟨2, ![a, b]⟩
          (log (shapeCast ⟨2, ![a, 1]⟩
            (multiReduction (F := Ideal) .add [1] ⟨1, ![a]⟩
              (exp (subf v (broadcastTo ⟨2, ![a, b]⟩
                (shapeCast ⟨2, ![a, 1]⟩ (multiReduction (F := Ideal) .maximumf [1] ⟨1, ![a]⟩ v 0xFF800000#32 hr hφ hm) hc) hb)))
              0x00000000#32 hr hφ' hs) hc)) hb) (ix2 r q)
      = (f q - (Finset.univ : Finset (Fin b)).fold max (Ideal.ofBits .f32 0xFF800000#32) f)
          - Ideal.log (∑ j : Fin b,
              Ideal.exp (f j - (Finset.univ : Finset (Fin b)).fold max (Ideal.ofBits .f32 0xFF800000#32) f)) := by
  -- the centred block at any entry of row `r`
  have hz : ∀ k : Fin b, subf v (broadcastTo ⟨2, ![a, b]⟩
      (shapeCast ⟨2, ![a, 1]⟩ (multiReduction (F := Ideal) .maximumf [1] ⟨1, ![a]⟩ v 0xFF800000#32 hr hφ hm) hc) hb) (ix2 r k)
      = f k - (Finset.univ : Finset (Fin b)).fold max (Ideal.ofBits .f32 0xFF800000#32) f := fun k => by
    rw [subf_apply, broadcastTo_a1_ab_apply, shapeCast_a_a1_apply, multiReduction_maximumf_lane, hv k]
    exact congrArg (fun g : Fin b → EReal => f k - (Finset.univ : Finset (Fin b)).fold max (Ideal.ofBits .f32 0xFF800000#32) g)
      (funext hv)
  rw [subf_apply, hz q, broadcastTo_a1_ab_apply, log_apply, shapeCast_a_a1_apply, multiReduction_add_lane]
  exact congrArg (fun t : EReal => _ - Ideal.log t) (Finset.sum_congr rfl fun j _ => by rw [exp_apply, hz j])

end Bodies

end Cert.Proof.LibRows
-- ==== Proof.BodyAt.lean ====
/-
  The kernel body's three stored values READ AT A CLASS `k`, for any block of 512 class words `w` and any block
  `v` of 512 rows of 2048 entries, over what the output block held before (`acc`):
    the count block   ends at  `acc k + ∑ r, [w r is the word of k] · 1`;
    the sum block     ends at  `acc k + ∑ r, [w r is the word of k] · o r`;
    the square block  ends at  `acc k + ∑ r, [w r is the word of k] · o r · o r`,
  where `o r = ∑ j, [w r is the word of j] · v (r, j)` is the row's own entry found as a lane sum over the one-hot mask
  (the mask compares the row's word, broadcast along the lanes, with the lane number). The reset blocks are zero.
-/
import proofs.«407489_j87729001988667_3_alg».proof.Proof.Gen.KernelIdeal.Skeleton
import proofs.«407489_j87729001988667_3_alg».proof.Proof.LibRows
import Idealize.ShloMosaic.PureOps.Ideal.Laws
import Idealize.ShloMosaic.Lib.ValueIdx
import Idealize.ShloMosaic.Lib.ValueLayout
import Idealize.ShloMosaic.Lib.IdealHost

open scoped BigOperators

noncomputable section

namespace Cert.KernelIdeal.BodyAt

open Cert.KernelIdeal Cert.KernelIdeal.Gen Idealize.ShloMosaic Idealize.ShloMosaic.ValueIdx

/-- The one-hot mask at row `r`, lane `j`: set exactly when the row's word is the word of `j`. -/
theorem mask_apply (w : Vec Ideal S512 .i32) (r : Fin 512) (j : Fin 2048) :
    k0_pay5 (F := Ideal) w (ix2 r j) = if w (ix1 r) = BitVec.ofNat 32 j.val then 1#1 else 0#1 := by
  unfold k0_pay5
  show IntOp.cmpi .eq
      (broadcastTo S512x2048 (shapeCast S512x1 w shapeCasts_S512_S512x1) broadcasts_S512x1_S512x2048 (ix2 r j))
      (iota .tc S512x2048 32 [1] iota_S512x2048_d1_w32 (ix2 r j)) = _
  rw [Cert.Proof.LibRows.broadcastTo_a1_ab_apply, Cert.Proof.LibRows.shapeCast_a_a1_apply]
  have hi : iota .tc S512x2048 32 [1] iota_S512x2048_d1_w32 (ix2 r j) = BitVec.ofNat 32 j.val := by
    show BitVec.ofNat 32 (0 * 2048 + j.val) = BitVec.ofNat 32 j.val
    rw [Nat.zero_mul, Nat.zero_add]
  rw [hi]
  unfold IntOp.cmpi
  by_cases h : w (ix1 r) = BitVec.ofNat 32 j.val
  · rw [if_pos h, show (w (ix1 r) == BitVec.ofNat 32 j.val) = true from beq_iff_eq.mpr h]; rfl
  · rw [if_neg h, show (w (ix1 r) == BitVec.ofNat 32 j.val) = false from beq_eq_false_iff_ne.mpr h]; rfl

/-- A select on the one-hot mask at row `r`, lane `j` is the `if` on "the row's word is the word of `j`". -/
private theorem sel_mask {α : Type} (w : Vec Ideal S512 .i32) (a b : S512x2048.Idx → α) (r : Fin 512) (j : Fin 2048) :
    select (k0_pay5 (F := Ideal) w) a b (ix2 r j)
      = if w (ix1 r) = BitVec.ofNat 32 j.val then a (ix2 r j) else b (ix2 r j) := by
  rw [select_apply, mask_apply]
  by_cases h : w (ix1 r) = BitVec.ofNat 32 j.val
  · rw [if_pos h, if_pos h, select_one]
  · rw [if_neg h, if_neg h, select_zero]

/-- The source index a reduction of `[a, b]` over its row axis inserts over lane `k` at row `r` is `(r, k)`. -/
private theorem lift_row {a b : ℕ} (h : (⟨2, ![a, b]⟩ : Shape).Reduces [0] ⟨1, ![b]⟩) (k : Fin b) (r : Fin a) :
    h.lift (ix1 k) r = ix2 r k :=
  funext fun c => Fin.ext (match c with | ⟨0, _⟩ => rfl | ⟨1, _⟩ => rfl)

/-- The row sum of an `[a, b]` block at lane `k` is the sum over the rows of the lane's entries. -/
private theorem multiReduction_add_row {a b : ℕ} (src : FVec Ideal ⟨2, ![a, b]⟩ .f32) (acc : BitVec FTy.f32.bits)
    (h : (⟨2, ![a, b]⟩ : Shape).Reduces [0] ⟨1, ![b]⟩) (hφ : FKind.Formats .f32) (hacc : acc = FKind.add.neutral .f32 hφ)
    (k : Fin b) :
    multiReduction (F := Ideal) .add [0] ⟨1, ![b]⟩ src acc h hφ hacc (ix1 k) = ∑ r : Fin a, src (ix2 r k) :=
  (Ideal.multiReduction_add_single src acc h hφ hacc (ix1 k)).trans
    (Finset.sum_congr rfl fun r _ => congrArg src (lift_row h k r))

/-- The row's own entry, broadcast along the lanes: at `(r, j)` the lane sum over the one-hot mask of row `r`. -/
theorem own_apply (w : Vec Ideal S512 .i32) (v : Vec Ideal S512x2048 .f32) (r : Fin 512) (j : Fin 2048) :
    k0_pay6 (F := Ideal) w v (ix2 r j)
      = ∑ l : Fin 2048, if w (ix1 r) = BitVec.ofNat 32 l.val then v (ix2 r l) else 0 := by
  unfold k0_pay6
  show broadcastTo S512x2048
      (shapeCast S512x1
        (shapeCast S512x1
          (multiReduction (F := Ideal) .add [1] S512
            (select (k0_pay5 (F := Ideal) w) v (broadcast S512x2048 (Ideal.ofBits .f32 0x00000000#32)))
            0x00000000#32 reduces_S512x2048_S512 (.inl rfl) rfl)
          shapeCasts_S512_S512x1)
        shapeCasts_S512x1_S512x1)
      broadcasts_S512x1_S512x2048 (ix2 r j) = _
  rw [Cert.Proof.LibRows.broadcastTo_a1_ab_apply, shapeCast_self, Cert.Proof.LibRows.shapeCast_a_a1_apply]
  refine (Cert.Proof.LibRows.multiReduction_add_lane _ _ _ _ _ r).trans ?_
  refine Finset.sum_congr rfl fun l _ => ?_
  rw [sel_mask, broadcast_apply, Ideal.ofBits_zero_f32]

/-- The reset blocks are zero. -/
theorem zero2_apply (k : Fin 2048) : k0_pay2 (F := Ideal) (ix1 k) = 0 := by
  show Ideal.ofBits .f32 0x00000000#32 = 0
  exact Ideal.ofBits_zero_f32
theorem zero3_apply (k : Fin 2048) : k0_pay3 (F := Ideal) (ix1 k) = 0 := by
  show Ideal.ofBits .f32 0x00000000#32 = 0
  exact Ideal.ofBits_zero_f32
theorem zero4_apply (k : Fin 2048) : k0_pay4 (F := Ideal) (ix1 k) = 0 := by
  show Ideal.ofBits .f32 0x00000000#32 = 0
  exact Ideal.ofBits_zero_f32

/-- The count block at class `k`. -/
theorem cnt_apply (w : Vec Ideal S512 .i32) (acc : Vec Ideal S2048 .f32) (k : Fin 2048) :
    k0_pay7 (F := Ideal) w acc (ix1 k)
      = acc (ix1 k) + ∑ r : Fin 512, if w (ix1 r) = BitVec.ofNat 32 k.val then (1 : EReal) else 0 := by
  unfold k0_pay7
  show shapeCast S2048 acc shapeCasts_S2048_S2048 (ix1 k)
      + multiReduction (F := Ideal) .add [0] S2048
          (select (k0_pay5 (F := Ideal) w) (broadcast S512x2048 (Ideal.ofBits .f32 0x3F800000#32))
            (broadcast S512x2048 (Ideal.ofBits .f32 0x00000000#32)))
          0x00000000#32 reduces_S512x2048_S2048 (.inl rfl) rfl (ix1 k) = _
  rw [shapeCast_self]
  refine congrArg (acc (ix1 k) + ·) ?_
  refine (multiReduction_add_row _ _ _ _ _ k).trans ?_
  refine Finset.sum_congr rfl fun r _ => ?_
  rw [sel_mask, broadcast_apply, broadcast_apply, Ideal.ofBits_one_f32, Ideal.ofBits_zero_f32]

/-- The sum block at class `k`. -/
theorem sm_apply (w : Vec Ideal S512 .i32) (v : Vec Ideal S512x2048 .f32) (acc : Vec Ideal S2048 .f32) (k : Fin 2048) :
    k0_pay8 (F := Ideal) w v acc (ix1 k)
      = acc (ix1 k) + ∑ r : Fin 512, if w (ix1 r) = BitVec.ofNat 32 k.val
          then (∑ l : Fin 2048, if w (ix1 r) = BitVec.ofNat 32 l.val then v (ix2 r l) else 0) else 0 := by
  unfold k0_pay8
  show shapeCast S2048 acc shapeCasts_S2048_S2048 (ix1 k)
      + multiReduction (F := Ideal) .add [0] S2048
          (select (k0_pay5 (F := Ideal) w) (k0_pay6 (F := Ideal) w v)
            (broadcast S512x2048 (Ideal.ofBits .f32 0x00000000#32)))
          0x00000000#32 reduces_S512x2048_S2048 (.inl rfl) rfl (ix1 k) = _
  rw [shapeCast_self]
  refine congrArg (acc (ix1 k) + ·) ?_
  refine (multiReduction_add_row _ _ _ _ _ k).trans ?_
  refine Finset.sum_congr rfl fun r _ => ?_
  rw [sel_mask, own_apply, broadcast_apply, Ideal.ofBits_zero_f32]

/-- The square block at class `k`. -/
theorem sq_apply (w : Vec Ideal S512 .i32) (v : Vec Ideal S512x2048 .f32) (acc : Vec Ideal S2048 .f32) (k : Fin 2048) :
    k0_pay1 (F := Ideal) (k0_pay9 (F := Ideal) acc) (k0_pay10 (F := Ideal) w v) (ix1 k)
      = acc (ix1 k) + ∑ r : Fin 512, if w (ix1 r) = BitVec.ofNat 32 k.val
          then (∑ l : Fin 2048, if w (ix1 r) = BitVec.ofNat 32 l.val then v (ix2 r l) else 0)
             * (∑ l : Fin 2048, if w (ix1 r) = BitVec.ofNat 32 l.val then v (ix2 r l) else 0) else 0 := by
  unfold k0_pay1 k0_pay9 k0_pay10
  show shapeCast S2048 acc shapeCasts_S2048_S2048 (ix1 k)
      + multiReduction (F := Ideal) .add [0] S2048
          (select (k0_pay5 (F := Ideal) w) (mulf (k0_pay6 (F := Ideal) w v) (k0_pay6 (F := Ideal) w v))
            (broadcast S512x2048 (Ideal.ofBits .f32 0x00000000#32)))
          0x00000000#32 reduces_S512x2048_S2048 (.inl rfl) rfl (ix1 k) = _
  rw [shapeCast_self]
  refine congrArg (acc (ix1 k) + ·) ?_
  refine (multiReduction_add_row _ _ _ _ _ k).trans ?_
  refine Finset.sum_congr rfl fun r _ => ?_
  rw [sel_mask, mulf_apply, own_apply, broadcast_apply, Ideal.ofBits_zero_f32]

end Cert.KernelIdeal.BodyAt

end
-- ==== Proof.Region.lean ====
/-
  What the three output arrays of the pallas_call hold when the region ends: entry `2048 p + k` of the count array is
  half `p`'s count of class `k`, and likewise the sum array and the square array.

  The grid has 256 points; point `t` reads block `t` of the class words (rows `512 t … 512 t + 511`) and the same rows of
  the entries, and works on block `t / 128` of each output, which it resets at the points `≡ 0 (mod 128)` and adds the
  block's part to at every point; an output block is written back after the points `≡ 127 (mod 128)`. So after point `t`
  an output's staging block holds the parts of the blocks `128 (t / 128) … t`, summed in point order, and the block written
  back after point `128 p + 127` is half `p`'s sum.
-/
import proofs.«407489_j87729001988667_3_alg».proof.Proof.Gen.KernelIdeal.Frame
import proofs.«407489_j87729001988667_3_alg».proof.Proof.BodyAt
import proofs.«407489_j87729001988667_3_alg».proof.Proof.ClassSums
import Idealize.ShloMosaic.Lib.Pipeline.Value
import Idealize.ShloMosaic.Lib.Tactic

open scoped BigOperators

noncomputable section

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)
open Cert.Proof

section Pieces
variable {F : FTy → Type} [FloatOps F]

private theorem hz1 : (![0] : Fin 1 → Nat) = fun _ => 0 := funext fun a => by fin_cases a; rfl
private theorem hz2 : (![0, 0] : Fin 2 → Nat) = fun _ => 0 := funext fun a => by fin_cases a <;> rfl

private theorem outA2 (c : Dev nD) (i : grid0.Coords) (a2 : Memref sig .tc .vmem S512 .i32) (h2 : a2.IsWhole)
    (a3 : Memref sig .tc .vmem S512x2048 .f32) (h3 : a3.IsWhole) (a4 : Memref sig .tc .vmem S2048 .f32) (h4 : a4.IsWhole)
    (a5 : Memref sig .tc .vmem S2048 .f32) (h5 : a5.IsWhole) (a6 : Memref sig .tc .vmem S2048 .f32) (h6 : a6.IsWhole)
    (hc : cond0_0 i) (x0 : Vec F S512 .i32) (x1 : Vec F S512x2048 .f32) :
    out0_A_2 c i a2 h2 a3 h3 a4 h4 a5 h5 a6 h6 hc x0 x1 = k0_pay7 x0 (k0_pay2 (F := F)) := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_cons_unit_zero (S := S2048) hz1, View.readCov_unit_zero (S := S2048) _ hz1]
  simp only [View.readAt_eq_ld, h2.read_unread, h3.read_unread,
    View.ld_unit_zero (S := S512) hz1, View.ld_unit_zero (S := S2048) hz1, View.ld_unit_zero (S := S512x2048) hz2]

private theorem outA3 (c : Dev nD) (i : grid0.Coords) (a2 : Memref sig .tc .vmem S512 .i32) (h2 : a2.IsWhole)
    (a3 : Memref sig .tc .vmem S512x2048 .f32) (h3 : a3.IsWhole) (a4 : Memref sig .tc .vmem S2048 .f32) (h4 : a4.IsWhole)
    (a5 : Memref sig .tc .vmem S2048 .f32) (h5 : a5.IsWhole) (a6 : Memref sig .tc .vmem S2048 .f32) (h6 : a6.IsWhole)
    (hc : cond0_0 i) (x0 : Vec F S512 .i32) (x1 : Vec F S512x2048 .f32) :
    out0_A_3 c i a2 h2 a3 h3 a4 h4 a5 h5 a6 h6 hc x0 x1 = k0_pay8 x0 x1 (k0_pay3 (F := F)) := by
  unfold out0_A_3
  rw [View.read_writes_eq_canon _ _ _ (cover0_A_3 c i a2 h2 a3 h3 a4 h4 a5 h5 a6 h6 hc x0 x1)]
  unfold kernelRun0_A
  dsimp only
  sl_unfold_words
  rw [View.canon_cons_unit_zero (S := S2048) hz1, View.readCov_unit_zero (S := S2048) _ hz1]
  simp only [View.readAt_eq_ld, h2.read_unread, h3.read_unread,
    View.ld_unit_zero (S := S512) hz1, View.ld_unit_zero (S := S2048) hz1, View.ld_unit_zero (S := S512x2048) hz2]

private theorem outA4 (c : Dev nD) (i : grid0.Coords) (a2 : Memref sig .tc .vmem S512 .i32) (h2 : a2.IsWhole)
    (a3 : Memref sig .tc .vmem S512x2048 .f32) (h3 : a3.IsWhole) (a4 : Memref sig .tc .vmem S2048 .f32) (h4 : a4.IsWhole)
    (a5 : Memref sig .tc .vmem S2048 .f32) (h5 : a5.IsWhole) (a6 : Memref sig .tc .vmem S2048 .f32) (h6 : a6.IsWhole)
    (hc : cond0_0 i) (x0 : Vec F S512 .i32) (x1 : Vec F S512x2048 .f32) :
    out0_A_4 c i a2 h2 a3 h3 a4 h4 a5 h5 a6 h6 hc x0 x1 = k0_pay1 (k0_pay9 (k0_pay4 (F := F))) (k0_pay10 x0 x1) := by
  unfold out0_A_4
  rw [View.read_writes_eq_canon _ _ _ (cover0_A_4 c i a2 h2 a3 h3 a4 h4 a5 h5 a6 h6 hc x0 x1)]
  unfold kernelRun0_A
  dsimp only
  sl_unfold_words
  rw [View.canon_cons_unit_zero (S := S2048) hz1, View.readCov_unit_zero (S := S2048) _ hz1]
  simp only [View.readAt_eq_ld, h2.read_unread, h3.read_unread,
    View.ld_unit_zero (S := S512) hz1, View.ld_unit_zero (S := S2048) hz1, View.ld_unit_zero (S := S512x2048) hz2]

private theorem outB2 (c : Dev nD) (i : grid0.Coords) (a2 : Memref sig .tc .vmem S512 .i32) (h2 : a2.IsWhole)
    (a3 : Memref sig .tc .vmem S512x2048 .f32) (h3 : a3.IsWhole) (a4 : Memref sig .tc .vmem S2048 .f32) (h4 : a4.IsWhole)
    (a5 : Memref sig .tc .vmem S2048 .f32) (h5 : a5.IsWhole) (a6 : Memref sig .tc .vmem S2048 .f32) (h6 : a6.IsWhole)
    (hc : ¬cond0_0 i) (x0 : Vec F S512 .i32) (x1 : Vec F S512x2048 .f32) (xo2 xo3 xo4 : Vec F S2048 .f32) :
    out0_B_2 c i a2 h2 a3 h3 a4 h4 a5 h5 a6 h6 hc x0 x1 xo2 xo3 xo4 = k0_pay7 x0 xo2 := by
  unfold out0_B_2
  rw [View.read_writes_eq_canon _ _ _ (cover0_B_2 c i a2 h2 a3 h3 a4 h4 a5 h5 a6 h6 hc x0 x1 xo2 xo3 xo4)]
  unfold kernelRun0_B
  dsimp only
  sl_unfold_words
  rw [View.canon_unit_zero hz1]
  simp only [View.readAt_eq_ld, h2.read_unread, h3.read_unread, h4.read_unread, h5.read_unread, h6.read_unread,
    View.ld_unit_zero (S := S512) hz1, View.ld_unit_zero (S := S2048) hz1, View.ld_unit_zero (S := S512x2048) hz2]

private theorem outB3 (c : Dev nD) (i : grid0.Coords) (a2 : Memref sig .tc .vmem S512 .i32) (h2 : a2.IsWhole)
    (a3 : Memref sig .tc .vmem S512x2048 .f32) (h3 : a3.IsWhole) (a4 : Memref sig .tc .vmem S2048 .f32) (h4 : a4.IsWhole)
    (a5 : Memref sig .tc .vmem S2048 .f32) (h5 : a5.IsWhole) (a6 : Memref sig .tc .vmem S2048 .f32) (h6 : a6.IsWhole)
    (hc : ¬cond0_0 i) (x0 : Vec F S512 .i32) (x1 : Vec F S512x2048 .f32) (xo2 xo3 xo4 : Vec F S2048 .f32) :
    out0_B_3 c i a2 h2 a3 h3 a4 h4 a5 h5 a6 h6 hc x0 x1 xo2 xo3 xo4 = k0_pay8 x0 x1 xo3 := by
  unfold out0_B_3
  rw [View.read_writes_eq_canon _ _ _ (cover0_B_3 c i a2 h2 a3 h3 a4 h4 a5 h5 a6 h6 hc x0 x1 xo2 xo3 xo4)]
  unfold kernelRun0_B
  dsimp only
  sl_unfold_words
  rw [View.canon_unit_zero hz1]
  simp only [View.readAt_eq_ld, h2.read_unread, h3.read_unread, h4.read_unread, h5.read_unread, h6.read_unread,
    View.ld_unit_zero (S := S512) hz1, View.ld_unit_zero (S := S2048) hz1, View.ld_unit_zero (S := S512x2048) hz2]

private theorem outB4 (c : Dev nD) (i : grid0.Coords) (a2 : Memref sig .tc .vmem S512 .i32) (h2 : a2.IsWhole)
    (a3 : Memref sig .tc .vmem S512x2048 .f32) (h3 : a3.IsWhole) (a4 : Memref sig .tc .vmem S2048 .f32) (h4 : a4.IsWhole)
    (a5 : Memref sig .tc .vmem S2048 .f32) (h5 : a5.IsWhole) (a6 : Memref sig .tc .vmem S2048 .f32) (h6 : a6.IsWhole)
    (hc : ¬cond0_0 i) (x0 : Vec F S512 .i32) (x1 : Vec F S512x2048 .f32) (xo2 xo3 xo4 : Vec F S2048 .f32) :
    out0_B_4 c i a2 h2 a3 h3 a4 h4 a5 h5 a6 h6 hc x0 x1 xo2 xo3 xo4 = k0_pay1 (k0_pay9 xo4) (k0_pay10 x0 x1) := by
  unfold out0_B_4
  rw [View.read_writes_eq_canon _ _ _ (cover0_B_4 c i a2 h2 a3 h3 a4 h4 a5 h5 a6 h6 hc x0 x1 xo2 xo3 xo4)]
  unfold kernelRun0_B
  dsimp only
  sl_unfold_words
  rw [View.canon_unit_zero hz1]
  simp only [View.readAt_eq_ld, h2.read_unread, h3.read_unread, h4.read_unread, h5.read_unread, h6.read_unread,
    View.ld_unit_zero (S := S512) hz1, View.ld_unit_zero (S := S2048) hz1, View.ld_unit_zero (S := S512x2048) hz2]

end Pieces

variable (m : (ℓ : Loc nD τ sig) → Buf (Elt Ideal) ℓ)

/-- The class words as the region finds them. -/
abbrev words (c : Dev nD) : Vec Ideal S131072 .i32 := V m c main_arg1
/-- The entries as the region finds them. -/
abbrev entries (c : Dev nD) : Vec Ideal S131072x2048 .f32 := V m c main_arg0

/-- Entry `2048 p + k` of an output array. -/
def slot (p : Fin 2) (k : Fin 2048) : S4096.Idx := ix1 ⟨p.val * 2048 + k.val, by have := p.isLt; have := k.isLt; omega⟩

/-- The grid has 256 points. -/
private theorem lt256 (t : Fin cfg0.N) : t.val < 256 := lt_of_lt_of_eq t.isLt (show cfg0.N = 256 from N_0)

/-- Point `t` as a block of the batch. -/
private abbrev blkOf (t : Fin cfg0.N) : Fin 256 := ⟨t.val, lt256 t⟩

/-- The input windows' block index at point `t` is `t` (rows), and `0` along the lanes; an output's is `t / 128`. -/
private theorem idx_in : ∀ t : Fin cfg0.N, win0_0.index t (0 : Fin 1) = t.val ∧ win0_1.index t (0 : Fin 2) = t.val
    ∧ win0_1.index t (1 : Fin 2) = 0 :=
  (by decide +kernel : ∀ t : Fin grid0.N, win0_0.index t (0 : Fin 1) = t.val ∧ win0_1.index t (0 : Fin 2) = t.val
    ∧ win0_1.index t (1 : Fin 2) = 0)
private theorem idx_out : ∀ t : Fin cfg0.N, win0_2.index t (0 : Fin 1) = t.val / 128 ∧ win0_3.index t (0 : Fin 1) = t.val / 128
    ∧ win0_4.index t (0 : Fin 1) = t.val / 128 :=
  (by decide +kernel : ∀ t : Fin grid0.N, win0_2.index t (0 : Fin 1) = t.val / 128 ∧ win0_3.index t (0 : Fin 1) = t.val / 128
    ∧ win0_4.index t (0 : Fin 1) = t.val / 128)

/-- The block of class words point `t` reads, and the block of entries. -/
private abbrev wblk (c : Dev nD) (t : Fin cfg0.N) : Vec Ideal S512 .i32 := iblk m c 0 t
private abbrev vblk (c : Dev nD) (t : Fin cfg0.N) : Vec Ideal S512x2048 .f32 := iblk m c 1 t

/-- Row `r` of the words' block at point `t` is row `512 t + r` of the class words. -/
private theorem wblk_apply (c : Dev nD) (t : Fin cfg0.N) (r : Fin 512) :
    wblk m c t (ix1 r) = words m c (ix1 (ClassSums.brow (blkOf t) r)) := by
  have hi := (idx_in t).1
  unfold wblk iblk
  rw [View.read_apply]
  show V m c main_arg1 _ = V m c main_arg1 _
  congr 1
  funext a
  apply Fin.ext
  match a with
  | ⟨0, _⟩ => show win0_0.index t (0 : Fin 1) * 512 + 1 * r.val = t.val * 512 + r.val; rw [hi]; omega

/-- Entry `(r, j)` of the entries' block at point `t` is entry `(512 t + r, j)` of the entries. -/
private theorem vblk_apply (c : Dev nD) (t : Fin cfg0.N) (r : Fin 512) (j : Fin 2048) :
    vblk m c t (ix2 r j) = entries m c (ix2 (ClassSums.brow (blkOf t) r) j) := by
  have hi := (idx_in t).2
  unfold vblk iblk
  rw [View.read_apply]
  show V m c main_arg0 _ = V m c main_arg0 _
  congr 1
  funext a
  apply Fin.ext
  match a with
  | ⟨0, _⟩ => show win0_1.index t (0 : Fin 2) * 512 + 1 * r.val = t.val * 512 + r.val; rw [hi.1]; omega
  | ⟨1, _⟩ => show win0_1.index t (1 : Fin 2) * 2048 + 1 * j.val = j.val; rw [hi.2]; omega

/-- A quantity indexed by the points that is one part at the points `≡ 0 (mod 128)` and the previous point's value plus one
    part at every other point is, at point `n`, the sum of the parts of the points `128 (n / 128) … n`. -/
private theorem run_sum (N : ℕ) (f : (n : ℕ) → n < N → EReal) (part : ℕ → EReal)
    (hA : ∀ (n : ℕ) (h : n < N), n % 128 = 0 → f n h = part n)
    (hB : ∀ (n : ℕ) (h : n < N), ¬n % 128 = 0 → f n h = f (n - 1) (Nat.lt_of_le_of_lt (Nat.sub_le _ _) h) + part n) :
    ∀ (n : ℕ) (h : n < N), f n h = ∑ s ∈ Finset.range (n % 128 + 1), part (128 * (n / 128) + s) := by
  intro n
  induction n using Nat.strong_induction_on with
  | _ n ih =>
    intro h
    by_cases h0 : n % 128 = 0
    · rw [hA n h h0, h0, Finset.sum_range_one]
      exact congrArg part (by omega)
    · have e1 : n % 128 = (n - 1) % 128 + 1 := by omega
      have e2 : n / 128 = (n - 1) / 128 := by omega
      rw [hB n h h0, ih (n - 1) (by omega), Finset.sum_range_succ _ (n % 128), e1, e2]
      refine congrArg _ (congrArg part ?_)
      omega

/-- At the last point of half `p` that sum is the sum over the half's 128 blocks. -/
private theorem run_sum_half (part : ℕ → EReal) (p : Fin 2) (n : ℕ) (hn : n = p.val * 128 + 127) :
    ∑ s ∈ Finset.range (n % 128 + 1), part (128 * (n / 128) + s) = ∑ i : Fin 128, part (p.val * 128 + i.val) := by
  have hp := p.isLt
  have e1 : n % 128 + 1 = 128 := by omega
  have e2 : 128 * (n / 128) = p.val * 128 := by omega
  rw [e1, e2, Finset.sum_range]

/-- Block `n`'s part of the count of class `k`, nothing past the last block. -/
private def partCnt (c : Dev nD) (k : Fin 2048) (n : ℕ) : EReal :=
  if h : n < 256 then ClassSums.blockCnt (words m c) ⟨n, h⟩ k else 0

private theorem partCnt_of_lt (c : Dev nD) (k : Fin 2048) (t : Fin cfg0.N) :
    partCnt m c k t.val = ClassSums.blockCnt (words m c) (blkOf t) k := dif_pos (lt256 t)

/-- The words' block's hits of class `k` are block `t`'s part of the count. -/
private theorem hits_cnt (c : Dev nD) (k : Fin 2048) (t : Fin cfg0.N) :
    (∑ r : Fin 512, if wblk m c t (ix1 r) = BitVec.ofNat 32 k.val then (1 : EReal) else 0)
      = ClassSums.blockCnt (words m c) (blkOf t) k := by
  unfold ClassSums.blockCnt
  refine Finset.sum_congr rfl fun r _ => ?_
  rw [wblk_apply]

/-- The count block after a reset point: the block's part. -/
private theorem cnt_A (c : Dev nD) (k : Fin 2048) (t : Fin cfg0.N) (h0 : t.val % 128 = 0) :
    (outsAt0 m c t.val t.isLt).1 (ix1 k) = partCnt m c k t.val := by
  rw [outsAt0_A m c t h0]
  dsimp only
  refine (congrFun (outA2 (F := Ideal) c (grid0.coords t) (ms0_0 t) (hs0_0 t) (ms0_1 t) (hs0_1 t) (ms0_2 t) (hs0_2 t)
    (ms0_3 t) (hs0_3 t) (ms0_4 t) (hs0_4 t) ((hcond0_0 t).mpr h0) (wblk m c t) (vblk m c t)) (ix1 k)).trans ?_
  refine (BodyAt.cnt_apply (wblk m c t) (k0_pay2 (F := Ideal)) k).trans ?_
  rw [BodyAt.zero2_apply, zero_add, hits_cnt, partCnt_of_lt]

/-- The count block after any other point: what the point before left, plus the block's part. -/
private theorem cnt_B (c : Dev nD) (k : Fin 2048) (t : Fin cfg0.N) (h0 : ¬t.val % 128 = 0) :
    (outsAt0 m c t.val t.isLt).1 (ix1 k)
      = (outsAt0 m c (t.val - 1) (Nat.lt_of_le_of_lt (Nat.sub_le _ _) t.isLt)).1 (ix1 k) + partCnt m c k t.val := by
  rw [outsAt0_B m c t h0]
  dsimp only
  refine (congrFun (outB2 (F := Ideal) c (grid0.coords t) (ms0_0 t) (hs0_0 t) (ms0_1 t) (hs0_1 t) (ms0_2 t) (hs0_2 t)
    (ms0_3 t) (hs0_3 t) (ms0_4 t) (hs0_4 t) (fun h => h0 ((hcond0_0 t).mp h)) (wblk m c t) (vblk m c t)
    (outsAt0 m c (t.val - 1) (Nat.lt_of_le_of_lt (Nat.sub_le _ _) t.isLt)).1
    (outsAt0 m c (t.val - 1) (Nat.lt_of_le_of_lt (Nat.sub_le _ _) t.isLt)).2.1
    (outsAt0 m c (t.val - 1) (Nat.lt_of_le_of_lt (Nat.sub_le _ _) t.isLt)).2.2) (ix1 k)).trans ?_
  refine (BodyAt.cnt_apply (wblk m c t) (outsAt0 m c (t.val - 1) (Nat.lt_of_le_of_lt (Nat.sub_le _ _) t.isLt)).1 k).trans ?_
  rw [hits_cnt, partCnt_of_lt]

/-- The count block after point `n`: the parts of the blocks `128 (n / 128) … n`. -/
private theorem cnt_at (c : Dev nD) (k : Fin 2048) (n : ℕ) (h : n < cfg0.N) :
    (outsAt0 m c n h).1 (ix1 k) = ∑ s ∈ Finset.range (n % 128 + 1), partCnt m c k (128 * (n / 128) + s) :=
  run_sum cfg0.N (fun n h => (outsAt0 m c n h).1 (ix1 k)) (partCnt m c k)
    (fun n h h0 => cnt_A m c k ⟨n, h⟩ h0) (fun n h h0 => cnt_B m c k ⟨n, h⟩ h0) n h

/-- The count block after the last point of half `p`: the half's count. -/
private theorem cnt_half (c : Dev nD) (p : Fin 2) (k : Fin 2048) (t : Fin cfg0.N) (ht : t.val = p.val * 128 + 127) :
    (outsAt0 m c t.val t.isLt).1 (ix1 k) = ClassSums.halfCnt (words m c) p k := by
  rw [cnt_at, run_sum_half _ p t.val ht]
  unfold ClassSums.halfCnt
  refine Finset.sum_congr rfl fun i _ => ?_
  have hp := p.isLt
  have hi := i.isLt
  unfold partCnt
  rw [dif_pos (by omega)]
  rfl

/-- Block `n`'s part of the sum of class `k`, nothing past the last block. -/
private def partSm (c : Dev nD) (k : Fin 2048) (n : ℕ) : EReal :=
  if h : n < 256 then ClassSums.blockSm (words m c) (entries m c) ⟨n, h⟩ k else 0

private theorem partSm_of_lt (c : Dev nD) (k : Fin 2048) (t : Fin cfg0.N) :
    partSm m c k t.val = ClassSums.blockSm (words m c) (entries m c) (blkOf t) k := dif_pos (lt256 t)

/-- The block's rows of class `k`, each with its own entry as the one-hot lane sum, are block `t`'s part of the sum. -/
private theorem hits_sm (c : Dev nD) (k : Fin 2048) (t : Fin cfg0.N) :
    (∑ r : Fin 512, if wblk m c t (ix1 r) = BitVec.ofNat 32 k.val then (∑ l : Fin 2048, if wblk m c t (ix1 r) = BitVec.ofNat 32 l.val then vblk m c t (ix2 r l) else 0) else 0)
      = ClassSums.blockSm (words m c) (entries m c) (blkOf t) k := by
  unfold ClassSums.blockSm ClassSums.own
  refine Finset.sum_congr rfl fun r _ => ?_
  rw [wblk_apply]
  refine if_congr Iff.rfl (Finset.sum_congr rfl fun l _ => ?_) rfl
  rw [vblk_apply]

/-- The sum block after a reset point: the block's part. -/
private theorem sm_A (c : Dev nD) (k : Fin 2048) (t : Fin cfg0.N) (h0 : t.val % 128 = 0) :
    (outsAt0 m c t.val t.isLt).2.1 (ix1 k) = partSm m c k t.val := by
  rw [outsAt0_A m c t h0]
  dsimp only
  refine (congrFun (outA3 (F := Ideal) c (grid0.coords t) (ms0_0 t) (hs0_0 t) (ms0_1 t) (hs0_1 t) (ms0_2 t) (hs0_2 t)
    (ms0_3 t) (hs0_3 t) (ms0_4 t) (hs0_4 t) ((hcond0_0 t).mpr h0) (wblk m c t) (vblk m c t)) (ix1 k)).trans ?_
  refine (BodyAt.sm_apply (wblk m c t) (vblk m c t) (k0_pay3 (F := Ideal)) k).trans ?_
  rw [BodyAt.zero3_apply, zero_add, hits_sm, partSm_of_lt]

/-- The sum block after any other point: what the point before left, plus the block's part. -/
private theorem sm_B (c : Dev nD) (k : Fin 2048) (t : Fin cfg0.N) (h0 : ¬t.val % 128 = 0) :
    (outsAt0 m c t.val t.isLt).2.1 (ix1 k)
      = (outsAt0 m c (t.val - 1) (Nat.lt_of_le_of_lt (Nat.sub_le _ _) t.isLt)).2.1 (ix1 k) + partSm m c k t.val := by
  rw [outsAt0_B m c t h0]
  dsimp only
  refine (congrFun (outB3 (F := Ideal) c (grid0.coords t) (ms0_0 t) (hs0_0 t) (ms0_1 t) (hs0_1 t) (ms0_2 t) (hs0_2 t)
    (ms0_3 t) (hs0_3 t) (ms0_4 t) (hs0_4 t) (fun h => h0 ((hcond0_0 t).mp h)) (wblk m c t) (vblk m c t)
    (outsAt0 m c (t.val - 1) (Nat.lt_of_le_of_lt (Nat.sub_le _ _) t.isLt)).1
    (outsAt0 m c (t.val - 1) (Nat.lt_of_le_of_lt (Nat.sub_le _ _) t.isLt)).2.1
    (outsAt0 m c (t.val - 1) (Nat.lt_of_le_of_lt (Nat.sub_le _ _) t.isLt)).2.2) (ix1 k)).trans ?_
  refine (BodyAt.sm_apply (wblk m c t) (vblk m c t) (outsAt0 m c (t.val - 1) (Nat.lt_of_le_of_lt (Nat.sub_le _ _) t.isLt)).2.1 k).trans ?_
  rw [hits_sm, partSm_of_lt]

/-- The sum block after point `n`: the parts of the blocks `128 (n / 128) … n`. -/
private theorem sm_at (c : Dev nD) (k : Fin 2048) (n : ℕ) (h : n < cfg0.N) :
    (outsAt0 m c n h).2.1 (ix1 k) = ∑ s ∈ Finset.range (n % 128 + 1), partSm m c k (128 * (n / 128) + s) :=
  run_sum cfg0.N (fun n h => (outsAt0 m c n h).2.1 (ix1 k)) (partSm m c k)
    (fun n h h0 => sm_A m c k ⟨n, h⟩ h0) (fun n h h0 => sm_B m c k ⟨n, h⟩ h0) n h

/-- The sum block after the last point of half `p`: the half's sum. -/
private theorem sm_half (c : Dev nD) (p : Fin 2) (k : Fin 2048) (t : Fin cfg0.N) (ht : t.val = p.val * 128 + 127) :
    (outsAt0 m c t.val t.isLt).2.1 (ix1 k) = ClassSums.halfSm (words m c) (entries m c) p k := by
  rw [sm_at, run_sum_half _ p t.val ht]
  unfold ClassSums.halfSm
  refine Finset.sum_congr rfl fun i _ => ?_
  have hp := p.isLt
  have hi := i.isLt
  unfold partSm
  rw [dif_pos (by omega)]
  rfl

/-- Block `n`'s part of the sum of squares of class `k`, nothing past the last block. -/
private def partSq (c : Dev nD) (k : Fin 2048) (n : ℕ) : EReal :=
  if h : n < 256 then ClassSums.blockSq (words m c) (entries m c) ⟨n, h⟩ k else 0

private theorem partSq_of_lt (c : Dev nD) (k : Fin 2048) (t : Fin cfg0.N) :
    partSq m c k t.val = ClassSums.blockSq (words m c) (entries m c) (blkOf t) k := dif_pos (lt256 t)

/-- The block's rows of class `k`, each with the square of its own entry, are block `t`'s part of the sum of squares. -/
private theorem hits_sq (c : Dev nD) (k : Fin 2048) (t : Fin cfg0.N) :
    (∑ r : Fin 512, if wblk m c t (ix1 r) = BitVec.ofNat 32 k.val then (∑ l : Fin 2048, if wblk m c t (ix1 r) = BitVec.ofNat 32 l.val then vblk m c t (ix2 r l) else 0)
        * (∑ l : Fin 2048, if wblk m c t (ix1 r) = BitVec.ofNat 32 l.val then vblk m c t (ix2 r l) else 0) else 0)
      = ClassSums.blockSq (words m c) (entries m c) (blkOf t) k := by
  unfold ClassSums.blockSq ClassSums.own
  refine Finset.sum_congr rfl fun r _ => ?_
  rw [wblk_apply]
  have e : (∑ l : Fin 2048, if words m c (ix1 (ClassSums.brow (blkOf t) r)) = BitVec.ofNat 32 l.val then vblk m c t (ix2 r l) else 0)
      = ∑ l : Fin 2048, if words m c (ix1 (ClassSums.brow (blkOf t) r)) = BitVec.ofNat 32 l.val
          then entries m c (ix2 (ClassSums.brow (blkOf t) r) l) else 0 :=
    Finset.sum_congr rfl fun l _ => by rw [vblk_apply]
  rw [e]

/-- The square block after a reset point: the block's part. -/
private theorem sq_A (c : Dev nD) (k : Fin 2048) (t : Fin cfg0.N) (h0 : t.val % 128 = 0) :
    (outsAt0 m c t.val t.isLt).2.2 (ix1 k) = partSq m c k t.val := by
  rw [outsAt0_A m c t h0]
  dsimp only
  refine (congrFun (outA4 (F := Ideal) c (grid0.coords t) (ms0_0 t) (hs0_0 t) (ms0_1 t) (hs0_1 t) (ms0_2 t) (hs0_2 t)
    (ms0_3 t) (hs0_3 t) (ms0_4 t) (hs0_4 t) ((hcond0_0 t).mpr h0) (wblk m c t) (vblk m c t)) (ix1 k)).trans ?_
  refine (BodyAt.sq_apply (wblk m c t) (vblk m c t) (k0_pay4 (F := Ideal)) k).trans ?_
  rw [BodyAt.zero4_apply, zero_add, hits_sq, partSq_of_lt]

/-- The square block after any other point: what the point before left, plus the block's part. -/
private theorem sq_B (c : Dev nD) (k : Fin 2048) (t : Fin cfg0.N) (h0 : ¬t.val % 128 = 0) :
    (outsAt0 m c t.val t.isLt).2.2 (ix1 k)
      = (outsAt0 m c (t.val - 1) (Nat.lt_of_le_of_lt (Nat.sub_le _ _) t.isLt)).2.2 (ix1 k) + partSq m c k t.val := by
  rw [outsAt0_B m c t h0]
  dsimp only
  refine (congrFun (outB4 (F := Ideal) c (grid0.coords t) (ms0_0 t) (hs0_0 t) (ms0_1 t) (hs0_1 t) (ms0_2 t) (hs0_2 t)
    (ms0_3 t) (hs0_3 t) (ms0_4 t) (hs0_4 t) (fun h => h0 ((hcond0_0 t).mp h)) (wblk m c t) (vblk m c t)
    (outsAt0 m c (t.val - 1) (Nat.lt_of_le_of_lt (Nat.sub_le _ _) t.isLt)).1
    (outsAt0 m c (t.val - 1) (Nat.lt_of_le_of_lt (Nat.sub_le _ _) t.isLt)).2.1
    (outsAt0 m c (t.val - 1) (Nat.lt_of_le_of_lt (Nat.sub_le _ _) t.isLt)).2.2) (ix1 k)).trans ?_
  refine (BodyAt.sq_apply (wblk m c t) (vblk m c t) (outsAt0 m c (t.val - 1) (Nat.lt_of_le_of_lt (Nat.sub_le _ _) t.isLt)).2.2 k).trans ?_
  rw [hits_sq, partSq_of_lt]

/-- The square block after point `n`: the parts of the blocks `128 (n / 128) … n`. -/
private theorem sq_at (c : Dev nD) (k : Fin 2048) (n : ℕ) (h : n < cfg0.N) :
    (outsAt0 m c n h).2.2 (ix1 k) = ∑ s ∈ Finset.range (n % 128 + 1), partSq m c k (128 * (n / 128) + s) :=
  run_sum cfg0.N (fun n h => (outsAt0 m c n h).2.2 (ix1 k)) (partSq m c k)
    (fun n h h0 => sq_A m c k ⟨n, h⟩ h0) (fun n h h0 => sq_B m c k ⟨n, h⟩ h0) n h

/-- The square block after the last point of half `p`: the half's sum of squares. -/
private theorem sq_half (c : Dev nD) (p : Fin 2) (k : Fin 2048) (t : Fin cfg0.N) (ht : t.val = p.val * 128 + 127) :
    (outsAt0 m c t.val t.isLt).2.2 (ix1 k) = ClassSums.halfSq (words m c) (entries m c) p k := by
  rw [sq_at, run_sum_half _ p t.val ht]
  unfold ClassSums.halfSq
  refine Finset.sum_congr rfl fun i _ => ?_
  have hp := p.isLt
  have hi := i.isLt
  unfold partSq
  rw [dif_pos (by omega)]
  rfl
/-- The half and the class of an entry of an output array. -/
private abbrev halfOf (i : S4096.Idx) : Fin 2 := ⟨(i 0).val / 2048, by have h : (i 0).val < 4096 := (i 0).isLt; omega⟩
private abbrev classOf (i : S4096.Idx) : Fin 2048 := ⟨(i 0).val % 2048, Nat.mod_lt _ (by decide)⟩

private theorem halfOf_slot (p : Fin 2) (k : Fin 2048) : halfOf (slot p k) = p := by
  apply Fin.ext
  have := k.isLt
  show (p.val * 2048 + k.val) / 2048 = p.val
  omega
private theorem classOf_slot (p : Fin 2) (k : Fin 2048) : classOf (slot p k) = k := by
  apply Fin.ext
  have := k.isLt
  show (p.val * 2048 + k.val) % 2048 = k.val
  omega

/-- The arrays the region leaves: entry `i` is its half's count, sum, sum of squares of its class. -/
private abbrev cntArr (c : Dev nD) : Vec Ideal S4096 .f32 := fun i => ClassSums.halfCnt (words m c) (halfOf i) (classOf i)
private abbrev smArr (c : Dev nD) : Vec Ideal S4096 .f32 := fun i => ClassSums.halfSm (words m c) (entries m c) (halfOf i) (classOf i)
private abbrev sqArr (c : Dev nD) : Vec Ideal S4096 .f32 := fun i => ClassSums.halfSq (words m c) (entries m c) (halfOf i) (classOf i)

/-- An entry of an output array is in the block written back after point `t` iff it lies in that block's range. -/
private theorem mem_blk2 (t : Fin cfg0.N) (i : S4096.Idx) :
    i ∈ ((cfg0.win 2).blk t).view.set ↔ ∀ a : Fin 1, win0_2.index t a * S2048.size a ≤ (i a).val ∧ (i a).val < win0_2.index t a * S2048.size a + S2048.size a := by
  show i ∈ ((View.whole main_v0_0).slice (win0_2.rect t)).set ↔ _
  rw [View.set_slice_whole, Rect.mem_set_unit]
  exact Iff.rfl

private theorem mem_blk3 (t : Fin cfg0.N) (i : S4096.Idx) :
    i ∈ ((cfg0.win 3).blk t).view.set ↔ ∀ a : Fin 1, win0_3.index t a * S2048.size a ≤ (i a).val ∧ (i a).val < win0_3.index t a * S2048.size a + S2048.size a := by
  show i ∈ ((View.whole main_v0_1).slice (win0_3.rect t)).set ↔ _
  rw [View.set_slice_whole, Rect.mem_set_unit]
  exact Iff.rfl

private theorem mem_blk4 (t : Fin cfg0.N) (i : S4096.Idx) :
    i ∈ ((cfg0.win 4).blk t).view.set ↔ ∀ a : Fin 1, win0_4.index t a * S2048.size a ≤ (i a).val ∧ (i a).val < win0_4.index t a * S2048.size a + S2048.size a := by
  show i ∈ ((View.whole main_v0_2).slice (win0_4.rect t)).set ↔ _
  rw [View.set_slice_whole, Rect.mem_set_unit]
  exact Iff.rfl

/-- The block written back after the last point of a half is that half's block of the array. -/
private theorem flushed2_eq (c : Dev nD) (t : Fin cfg0.N) (hf : (cfg0.win 2).flush t = true) :
    (dats m 0 c).flushed 2 t = ((cfg0.win 2).blk t).view.read (Elt Ideal) (cntArr m c) := by
  have h127 : t.val % 128 = 127 := (flush0_2 t).mp hf
  have hN := lt256 t
  have hi := (idx_out t).1
  have hp : t.val / 128 < 2 := by omega
  show (cfg0.win 2).cut (grid0.coords t) ((dats m 0 c).after 2 t) = _
  rw [after0_2]
  funext j
  have hj : (j 0).val < 2048 := (j 0).isLt
  have he : ((cfg0.win 2).blk t).view.emb j = slot ⟨t.val / 128, hp⟩ ⟨(j 0).val, hj⟩ := by
    funext a
    apply Fin.ext
    match a with
    | ⟨0, _⟩ => show win0_2.index t (0 : Fin 1) * 2048 + 1 * (j 0).val = t.val / 128 * 2048 + (j 0).val; rw [hi]; omega
  refine Eq.trans (b := (outsAt0 m c t.val t.isLt).1 (ix1 ⟨(j 0).val, hj⟩)) ?_ ?_
  · exact congrArg (outsAt0 m c t.val t.isLt).1 (funext fun a => match a with | ⟨0, _⟩ => rfl)
  · rw [cnt_half m c ⟨t.val / 128, hp⟩ ⟨(j 0).val, hj⟩ t (by show t.val = t.val / 128 * 128 + 127; omega)]
    show ClassSums.halfCnt (words m c) ⟨t.val / 128, hp⟩ ⟨(j 0).val, hj⟩ = cntArr m c (((cfg0.win 2).blk t).view.emb j)
    rw [he]
    show _ = ClassSums.halfCnt (words m c) (halfOf (slot ⟨t.val / 128, hp⟩ ⟨(j 0).val, hj⟩)) (classOf (slot ⟨t.val / 128, hp⟩ ⟨(j 0).val, hj⟩))
    rw [halfOf_slot, classOf_slot]

private theorem flushed3_eq (c : Dev nD) (t : Fin cfg0.N) (hf : (cfg0.win 3).flush t = true) :
    (dats m 0 c).flushed 3 t = ((cfg0.win 3).blk t).view.read (Elt Ideal) (smArr m c) := by
  have h127 : t.val % 128 = 127 := (flush0_3 t).mp hf
  have hN := lt256 t
  have hi := (idx_out t).2.1
  have hp : t.val / 128 < 2 := by omega
  show (cfg0.win 3).cut (grid0.coords t) ((dats m 0 c).after 3 t) = _
  rw [after0_3]
  funext j
  have hj : (j 0).val < 2048 := (j 0).isLt
  have he : ((cfg0.win 3).blk t).view.emb j = slot ⟨t.val / 128, hp⟩ ⟨(j 0).val, hj⟩ := by
    funext a
    apply Fin.ext
    match a with
    | ⟨0, _⟩ => show win0_3.index t (0 : Fin 1) * 2048 + 1 * (j 0).val = t.val / 128 * 2048 + (j 0).val; rw [hi]; omega
  refine Eq.trans (b := (outsAt0 m c t.val t.isLt).2.1 (ix1 ⟨(j 0).val, hj⟩)) ?_ ?_
  · exact congrArg (outsAt0 m c t.val t.isLt).2.1 (funext fun a => match a with | ⟨0, _⟩ => rfl)
  · rw [sm_half m c ⟨t.val / 128, hp⟩ ⟨(j 0).val, hj⟩ t (by show t.val = t.val / 128 * 128 + 127; omega)]
    show ClassSums.halfSm (words m c) (entries m c) ⟨t.val / 128, hp⟩ ⟨(j 0).val, hj⟩ = smArr m c (((cfg0.win 3).blk t).view.emb j)
    rw [he]
    show _ = ClassSums.halfSm (words m c) (entries m c) (halfOf (slot ⟨t.val / 128, hp⟩ ⟨(j 0).val, hj⟩)) (classOf (slot ⟨t.val / 128, hp⟩ ⟨(j 0).val, hj⟩))
    rw [halfOf_slot, classOf_slot]

private theorem flushed4_eq (c : Dev nD) (t : Fin cfg0.N) (hf : (cfg0.win 4).flush t = true) :
    (dats m 0 c).flushed 4 t = ((cfg0.win 4).blk t).view.read (Elt Ideal) (sqArr m c) := by
  have h127 : t.val % 128 = 127 := (flush0_4 t).mp hf
  have hN := lt256 t
  have hi := (idx_out t).2.2
  have hp : t.val / 128 < 2 := by omega
  show (cfg0.win 4).cut (grid0.coords t) ((dats m 0 c).after 4 t) = _
  rw [after0_4]
  funext j
  have hj : (j 0).val < 2048 := (j 0).isLt
  have he : ((cfg0.win 4).blk t).view.emb j = slot ⟨t.val / 128, hp⟩ ⟨(j 0).val, hj⟩ := by
    funext a
    apply Fin.ext
    match a with
    | ⟨0, _⟩ => show win0_4.index t (0 : Fin 1) * 2048 + 1 * (j 0).val = t.val / 128 * 2048 + (j 0).val; rw [hi]; omega
  refine Eq.trans (b := (outsAt0 m c t.val t.isLt).2.2 (ix1 ⟨(j 0).val, hj⟩)) ?_ ?_
  · exact congrArg (outsAt0 m c t.val t.isLt).2.2 (funext fun a => match a with | ⟨0, _⟩ => rfl)
  · rw [sq_half m c ⟨t.val / 128, hp⟩ ⟨(j 0).val, hj⟩ t (by show t.val = t.val / 128 * 128 + 127; omega)]
    show ClassSums.halfSq (words m c) (entries m c) ⟨t.val / 128, hp⟩ ⟨(j 0).val, hj⟩ = sqArr m c (((cfg0.win 4).blk t).view.emb j)
    rw [he]
    show _ = ClassSums.halfSq (words m c) (entries m c) (halfOf (slot ⟨t.val / 128, hp⟩ ⟨(j 0).val, hj⟩)) (classOf (slot ⟨t.val / 128, hp⟩ ⟨(j 0).val, hj⟩))
    rw [halfOf_slot, classOf_slot]

/-- The count array after the region. -/
theorem final_cnt (c : Dev nD) (p : Fin 2) (k : Fin 2048) :
    ((dats m 0 c).arrAt 2 cfg0.N : Vec Ideal S4096 .f32) (slot p k) = ClassSums.halfCnt (words m c) p k := by
  have hfin : (dats m 0 c).arrAt 2 cfg0.N = cntArr m c :=
    (dats m 0 c).arrAt_eq_of_cover 2 (cntArr m c) (flushed2_eq m c) fun i => by
      have h4096 : (i 0).val < 4096 := (i 0).isLt
      have hlt : (i 0).val / 2048 * 128 + 127 < cfg0.N := by rw [show cfg0.N = 256 from N_0]; omega
      refine ⟨⟨(i 0).val / 2048 * 128 + 127, hlt⟩, (flush0_2 _).mpr (by show ((i 0).val / 2048 * 128 + 127) % 128 = 127; omega), ?_⟩
      rw [mem_blk2]
      intro a
      have hi := (idx_out ⟨(i 0).val / 2048 * 128 + 127, hlt⟩).1
      match a with
      | ⟨0, _⟩ =>
        show win0_2.index ⟨(i 0).val / 2048 * 128 + 127, hlt⟩ (0 : Fin 1) * 2048 ≤ (i 0).val
          ∧ (i 0).val < win0_2.index ⟨(i 0).val / 2048 * 128 + 127, hlt⟩ (0 : Fin 1) * 2048 + 2048
        rw [hi]
        show ((i 0).val / 2048 * 128 + 127) / 128 * 2048 ≤ (i 0).val ∧ (i 0).val < ((i 0).val / 2048 * 128 + 127) / 128 * 2048 + 2048
        omega
  rw [hfin]
  show ClassSums.halfCnt (words m c) (halfOf (slot p k)) (classOf (slot p k)) = _
  rw [halfOf_slot, classOf_slot]

/-- The sum array after the region. -/
theorem final_sm (c : Dev nD) (p : Fin 2) (k : Fin 2048) :
    ((dats m 0 c).arrAt 3 cfg0.N : Vec Ideal S4096 .f32) (slot p k) = ClassSums.halfSm (words m c) (entries m c) p k := by
  have hfin : (dats m 0 c).arrAt 3 cfg0.N = smArr m c :=
    (dats m 0 c).arrAt_eq_of_cover 3 (smArr m c) (flushed3_eq m c) fun i => by
      have h4096 : (i 0).val < 4096 := (i 0).isLt
      have hlt : (i 0).val / 2048 * 128 + 127 < cfg0.N := by rw [show cfg0.N = 256 from N_0]; omega
      refine ⟨⟨(i 0).val / 2048 * 128 + 127, hlt⟩, (flush0_3 _).mpr (by show ((i 0).val / 2048 * 128 + 127) % 128 = 127; omega), ?_⟩
      rw [mem_blk3]
      intro a
      have hi := (idx_out ⟨(i 0).val / 2048 * 128 + 127, hlt⟩).2.1
      match a with
      | ⟨0, _⟩ =>
        show win0_3.index ⟨(i 0).val / 2048 * 128 + 127, hlt⟩ (0 : Fin 1) * 2048 ≤ (i 0).val
          ∧ (i 0).val < win0_3.index ⟨(i 0).val / 2048 * 128 + 127, hlt⟩ (0 : Fin 1) * 2048 + 2048
        rw [hi]
        show ((i 0).val / 2048 * 128 + 127) / 128 * 2048 ≤ (i 0).val ∧ (i 0).val < ((i 0).val / 2048 * 128 + 127) / 128 * 2048 + 2048
        omega
  rw [hfin]
  show ClassSums.halfSm (words m c) (entries m c) (halfOf (slot p k)) (classOf (slot p k)) = _
  rw [halfOf_slot, classOf_slot]

/-- The square array after the region. -/
theorem final_sq (c : Dev nD) (p : Fin 2) (k : Fin 2048) :
    ((dats m 0 c).arrAt 4 cfg0.N : Vec Ideal S4096 .f32) (slot p k) = ClassSums.halfSq (words m c) (entries m c) p k := by
  have hfin : (dats m 0 c).arrAt 4 cfg0.N = sqArr m c :=
    (dats m 0 c).arrAt_eq_of_cover 4 (sqArr m c) (flushed4_eq m c) fun i => by
      have h4096 : (i 0).val < 4096 := (i 0).isLt
      have hlt : (i 0).val / 2048 * 128 + 127 < cfg0.N := by rw [show cfg0.N = 256 from N_0]; omega
      refine ⟨⟨(i 0).val / 2048 * 128 + 127, hlt⟩, (flush0_4 _).mpr (by show ((i 0).val / 2048 * 128 + 127) % 128 = 127; omega), ?_⟩
      rw [mem_blk4]
      intro a
      have hi := (idx_out ⟨(i 0).val / 2048 * 128 + 127, hlt⟩).2.2
      match a with
      | ⟨0, _⟩ =>
        show win0_4.index ⟨(i 0).val / 2048 * 128 + 127, hlt⟩ (0 : Fin 1) * 2048 ≤ (i 0).val
          ∧ (i 0).val < win0_4.index ⟨(i 0).val / 2048 * 128 + 127, hlt⟩ (0 : Fin 1) * 2048 + 2048
        rw [hi]
        show ((i 0).val / 2048 * 128 + 127) / 128 * 2048 ≤ (i 0).val ∧ (i 0).val < ((i 0).val / 2048 * 128 + 127) / 128 * 2048 + 2048
        omega
  rw [hfin]
  show ClassSums.halfSq (words m c) (entries m c) (halfOf (slot p k)) (classOf (slot p k)) = _
  rw [halfOf_slot, classOf_slot]

end Cert.KernelIdeal.Region

end
-- ==== Proof.Bridge.lean ====
/-
  Two joins between the programs' vectors and the class sums.

  `halfsum_apply`: the host's sum over the first axis of a vector of 4096 entries viewed as 2 rows of 2048, started from a
  literal, read at class `k`: the literal plus entry `k` plus entry `2048 + k` (the view is row-major).

  `kvar_eq_rvar`: if four vectors over the classes are, class by class, the count, the sum, the sum of squares and the
  sum of squared deviations from the class mean of a batch of REAL entries, then the kernel's form of the batch
  variance and the reference's are the same vector: class by class this is the identity
  `max (∑x²/n' - (∑x/n')²) 0 = ∑(x - ∑x/n')²/n'` with `n' = max n 1`.
-/
import proofs.«407489_j87729001988667_3_alg».proof.Proof.ClassSums
import proofs.«407489_j87729001988667_3_alg».proof.Proof.Tail
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

open scoped BigOperators

noncomputable section

namespace Cert.Proof.Bridge

open Idealize.ShloMosaic Idealize.ShloMosaic.ValueIdx Cert.Proof

/-- The source index a reduction of `[a, b]` over its first axis inserts over lane `k` at row `p` is `(p, k)`. -/
private theorem lift_row {a b : ℕ} (h : (⟨2, ![a, b]⟩ : Shape).Reduces [0] ⟨1, ![b]⟩) (k : Fin b) (p : Fin a) :
    h.lift (ix1 k) p = ix2 p k :=
  funext fun c => Fin.ext (match c with | ⟨0, _⟩ => rfl | ⟨1, _⟩ => rfl)

/-- Entry `(p, k)` of the `[2, 2048]` view of a vector of 4096 entries is entry `2048 p + k` (row-major). -/
private theorem view_apply (a : (⟨1, ![4096]⟩ : Shape).Idx → EReal)
    (hc : (⟨1, ![4096]⟩ : Shape).ShapeCasts ⟨2, ![2, 2048]⟩) (p : Fin 2) (k : Fin 2048) (q : Fin 4096)
    (hq : q.val = p.val * 2048 + k.val) :
    shapeCast (⟨2, ![2, 2048]⟩ : Shape) a hc (ix2 p k) = a (ix1 q) := by
  refine shapeCast_apply a hc (ix2 p k) (ix1 q) ?_
  rw [Shape.rowMajor_val_one, Shape.rowMajor_val_two]
  exact hq

/-- The host's sum of the two rows of the `[2, 2048]` view of a vector of 4096 entries, at class `k`. -/
theorem halfsum_apply (a : (⟨1, ![4096]⟩ : Shape).Idx → EReal)
    (hc : (⟨1, ![4096]⟩ : Shape).ShapeCasts ⟨2, ![2, 2048]⟩)
    (hr : (⟨2, ![2, 2048]⟩ : Shape).ReducesTo [0] ⟨1, ![2048]⟩) (h0 : 0 < (⟨0, ![]⟩ : Shape).numel)
    (w : BitVec 32) (k : Fin 2048) :
    Host.reduceAdd (F := Ideal) (φ := .f32) (shapeCast (⟨2, ![2, 2048]⟩ : Shape) a hc)
        (constant (F := Ideal) (⟨0, ![]⟩ : Shape) .f32 w) hr h0 (ix1 k)
      = Ideal.ofBits .f32 w
        + (a (ix1 (⟨k.val, by have := k.isLt; omega⟩ : Fin 4096))
            + a (ix1 (⟨2048 + k.val, by have := k.isLt; omega⟩ : Fin 4096))) := by
  have hR : (⟨2, ![2, 2048]⟩ : Shape).Reduces [0] ⟨1, ![2048]⟩ := by decide
  have hsum : Ideal.hostReduceAdd hr (shapeCast (⟨2, ![2, 2048]⟩ : Shape) a hc) (Ideal.ofBits .f32 w) (ix1 k)
      = Ideal.ofBits .f32 w + ∑ p : Fin 2, shapeCast (⟨2, ![2, 2048]⟩ : Shape) a hc (ix2 p k) :=
    (Ideal.hostReduceAdd_single hr hR _ _ (ix1 k)).trans
      (congrArg _ (Finset.sum_congr rfl fun p _ => congrArg _ (lift_row hR k p)))
  unfold Host.reduceAdd
  rw [Ideal.hostReduceAdd_def, constant_apply, hsum, Fin.sum_univ_two,
    view_apply a hc 0 k ⟨k.val, by have := k.isLt; omega⟩ (by simp),
    view_apply a hc 1 k ⟨2048 + k.val, by have := k.isLt; omega⟩ (by simp)]

/-- A literal vector reads its word's value at every class. -/
private theorem lit_apply (hb : Tail.S0.BroadcastsInDim Tail.SK (![] : Fin 0 → Fin Tail.SK.rank)) (w : BitVec 32)
    (i : Tail.SK.Idx) : Tail.lit hb w i = Ideal.ofBits .f32 w := by
  unfold Tail.lit
  exact (broadcastInDim_apply _ hb _ i (fun a => a.elim0) (fun a => a.elim0)).trans (constant_apply _ _)

/-- The host's quotient at a class is the ideal quotient of the entries. -/
private theorem hostDivf_apply (a b : FVec Ideal Tail.SK .f32) (i : Tail.SK.Idx) :
    Host.divf a b i = Ideal.div (a i) (b i) := rfl

/-- `max n 1` at a class. -/
private theorem nsafe_apply (hb : Tail.S0.BroadcastsInDim Tail.SK (![] : Fin 0 → Fin Tail.SK.rank))
    (n : FVec Ideal Tail.SK .f32) (i : Tail.SK.Idx) : Tail.nsafe hb n i = max (n i) 1 := by
  unfold Tail.nsafe
  rw [maximumf_apply, lit_apply, Ideal.ofBits_one_f32]

/-- The batch mean at a class. -/
private theorem bmean_apply (hb : Tail.S0.BroadcastsInDim Tail.SK (![] : Fin 0 → Fin Tail.SK.rank))
    (n s : FVec Ideal Tail.SK .f32) (i : Tail.SK.Idx) :
    Tail.bmean hb n s i = Ideal.div (s i) (max (n i) 1) := by
  unfold Tail.bmean
  rw [hostDivf_apply, nsafe_apply]

/-- The two forms of the batch variance are one vector. -/
theorem kvar_eq_rvar (hb : Tail.S0.BroadcastsInDim Tail.SK (![] : Fin 0 → Fin Tail.SK.rank))
    (tg : (⟨1, ![131072]⟩ : Shape).Idx → BitVec 32) (x : (⟨2, ![131072, 2048]⟩ : Shape).Idx → EReal)
    (hx : ∀ i, ∃ r : ℝ, x i = (r : EReal)) (n s ss ssd : FVec Ideal Tail.SK .f32)
    (hn : ∀ k : Fin 2048, n (ix1 k) = ClassSums.cnt tg k) (hs : ∀ k : Fin 2048, s (ix1 k) = ClassSums.sm tg x k)
    (hss : ∀ k : Fin 2048, ss (ix1 k) = ClassSums.sq tg x k)
    (hssd : ∀ k : Fin 2048, ssd (ix1 k)
      = ClassSums.ssd tg x (Ideal.div (ClassSums.sm tg x k) (max (ClassSums.cnt tg k) 1)) k) :
    Tail.kvar hb n s ss = Tail.rvar hb n ssd := by
  funext i
  obtain ⟨k, rfl⟩ : ∃ k : Fin 2048, i = ix1 k := ⟨i 0, eq_ix1 i⟩
  unfold Tail.kvar Tail.rvar
  rw [maximumf_apply, subf_apply, mulf_apply, hostDivf_apply, hostDivf_apply, bmean_apply, nsafe_apply, lit_apply,
    Ideal.ofBits_zero_f32, hn, hs, hss, hssd]
  exact ClassSums.var_eq tg x hx k

end Cert.Proof.Bridge

end
-- ==== Proof.Finite.lean ====
/-
  From the precondition to real entries. The precondition says that the conjunction of three tests is true: every
  entry of the batch, of the means and of the variances has absolute value below `+∞`. An extended real whose absolute
  value is below `+∞` is neither `+∞` nor `-∞`: it is a real. Only the batch's entries are needed here.
-/
import proofs.«407489_j87729001988667_3_alg».proof.Pre_finite_inputs
import proofs.«407489_j87729001988667_3_alg».proof.Proof.Gen.Pre_finite_inputs
import Idealize.ShloMosaic.PureOps.Ideal.Laws
import Idealize.ShloMosaic.Lib.ReduceAll
import Idealize.ShloMosaic.Lib.ValueIdx

noncomputable section

namespace Cert.Proof.Finite

open Idealize.ShloMosaic Cert.Pre_finite_inputs

/-- Under the precondition every entry of the batch is a real number. -/
theorem entries_real (x : FVec Ideal S131072x2048 .f32) (tg : IVec S131072 32) (mean var : FVec Ideal S2048 .f32)
    (count : IVec S2048 32)
    (h : Cert.Pre_finite_inputs.fn (F := Ideal) x tg mean var count = (fun _ => 1#1)) :
    ∀ i, ∃ r : ℝ, x i = (r : EReal) := by
  intro i
  have h0 := congrFun h ValueIdx.ix0
  dsimp only [Cert.Pre_finite_inputs.fn, andi] at h0
  have h2 := (IntOp.andi_eq_one.1 (IntOp.andi_eq_one.1 h0).1).1
  haveI : Subsingleton S_.Idx := ⟨fun a b => funext fun d => d.elim0⟩
  have h3 := Host.reduce_andi_all _ _ _ _ _ h2 i
  have htop : Ideal.ofBits .f32 0x7F800000#32 = (⊤ : EReal) := by simp [Ideal.ofBits, Ideal.ieee]
  have h4 : Ideal.cmp .olt (max (x i) (-(x i))) (⊤ : EReal) = 1#1 := by
    rw [← htop]
    exact h3
  have h5 : max (x i) (-(x i)) < (⊤ : EReal) := by
    by_contra hc
    simp [Ideal.cmp, hc] at h4
  generalize x i = a at h5 ⊢
  induction a using EReal.rec with
  | bot => simp at h5
  | coe r => exact ⟨r, rfl⟩
  | top => simp at h5

end Cert.Proof.Finite

end
-- ==== Proof.lean ====
/-
  The kernel and its reference compute, for each of 2048 classes, the exponential-moving-average update of a mean and a
  variance from one batch of 131072 rows: row `b` carries a class word and 2048 entries, and contributes its OWN entry
  `x (b, k)` to the class `k` its word names. Per class: `n` rows, `s = ∑ x`, batch mean `μ = s / max n 1`, a batch
  variance, then the blend with the old mean and variance (kept when `n = 0`, replaced when the old count is `0`) and the
  new count `count + n`.

  The kernel walks the batch in 256 blocks of 512 rows on a grid of two halves, finds each row's own entry as a lane sum
  over a one-hot mask, accumulates per half the counts, the sums and the sums of SQUARES, adds the two halves after the
  region, and takes the variance as `max (∑x²/n' - μ²) 0`. The reference gathers the own entries, adds counts and sums
  by accumulating scatters, and takes the variance from the sums of squared DEVIATIONS, `∑(x - μ)²/n'`.

  Over the extended reals, with every entry a real number (the precondition), the two agree: the kernel's three sums are
  the batch's (each row lies in exactly one block; the one-hot lane sum of a row of class `k` is its entry at `k`; a word
  naming no class is dropped by the mask and by the scatters alike), and `∑(x - s/n)² = ∑x² - s²/n` is not negative, so the
  two variances are one number; everything after the class sums is the same composition of the same operations.
  The frames are the generated ones (the reference's is its run with the results dropped); the idealization rewrote
  nothing.
-/
import proofs.«407489_j87729001988667_3_alg».proof.Defs
import proofs.«407489_j87729001988667_3_alg».proof.Proof.Gen.Kernel
import proofs.«407489_j87729001988667_3_alg».proof.Proof.Gen.Kernel.Frame
import proofs.«407489_j87729001988667_3_alg».proof.Proof.Gen.KernelIdeal
import proofs.«407489_j87729001988667_3_alg».proof.Proof.Gen.KernelIdeal.Frame
import proofs.«407489_j87729001988667_3_alg».proof.Proof.Gen.ReferenceIdeal
import proofs.«407489_j87729001988667_3_alg».proof.Proof.Gen.Pre_finite_inputs
import proofs.«407489_j87729001988667_3_alg».proof.Proof.RefRun
import proofs.«407489_j87729001988667_3_alg».proof.Proof.RefRead
import proofs.«407489_j87729001988667_3_alg».proof.Proof.RefValue
import proofs.«407489_j87729001988667_3_alg».proof.Proof.KernelRun
import proofs.«407489_j87729001988667_3_alg».proof.Proof.Region
import proofs.«407489_j87729001988667_3_alg».proof.Proof.Bridge
import proofs.«407489_j87729001988667_3_alg».proof.Proof.Finite
import Idealize.ShloMosaic.Adequacy
import Idealize.ShloMosaic.Init

noncomputable section

namespace Cert.Proof

open Idealize.ShloMosaic Idealize.ShloMosaic.ValueIdx Idealize.SL.Sem

/-! ## The kernel's class sums are the batch's -/

section KernelSums
open Cert.KernelIdeal Cert.KernelIdeal.Gen Cert.KernelIdeal.KValue

variable (m : (ℓ : Loc nD τ sig) → Buf (Elt Ideal) ℓ)

/-- The two halves of an output array added, at class `k`: the two slots of the class. -/
theorem halves_apply (a : Vec Ideal S4096 .f32) (k : Fin 2048) :
    halves a (ix1 k) = a (Region.slot 0 k) + a (Region.slot 1 k) := by
  unfold halves
  refine (Bridge.halfsum_apply a _ _ _ _ k).trans ?_
  rw [Ideal.ofBits_zero_f32, zero_add]
  have e0 : (ix1 (⟨k.val, by have := k.isLt; omega⟩ : Fin 4096) : S4096.Idx) = Region.slot 0 k := by
    unfold Region.slot; congr 1; exact Fin.ext (by simp)
  have e1 : (ix1 (⟨2048 + k.val, by have := k.isLt; omega⟩ : Fin 4096) : S4096.Idx) = Region.slot 1 k := by
    unfold Region.slot; rfl
  rw [e0, e1]

/-- The kernel's counts are the batch's. -/
theorem kernel_n (c : Dev nD) (k : Fin 2048) :
    nK m c (ix1 k) = ClassSums.cnt (m ((c.tc : Thread nD τ).loc main_arg1)) k := by
  show halves (arr m c 2) (ix1 k) = _
  rw [halves_apply]
  exact (congrArg₂ (fun u v : EReal => u + v) (Region.final_cnt m c 0 k) (Region.final_cnt m c 1 k)).trans (ClassSums.cnt_halves _ k)

/-- The kernel's sums are the batch's. -/
theorem kernel_s (c : Dev nD) (k : Fin 2048) :
    sK m c (ix1 k)
      = ClassSums.sm (m ((c.tc : Thread nD τ).loc main_arg1)) (m ((c.tc : Thread nD τ).loc main_arg0)) k := by
  show halves (arr m c 3) (ix1 k) = _
  rw [halves_apply]
  exact (congrArg₂ (fun u v : EReal => u + v) (Region.final_sm m c 0 k) (Region.final_sm m c 1 k)).trans (ClassSums.sm_halves _ _ k)

/-- The kernel's sums of squares are the batch's. -/
theorem kernel_ss (c : Dev nD) (k : Fin 2048) :
    ssK m c (ix1 k)
      = ClassSums.sq (m ((c.tc : Thread nD τ).loc main_arg1)) (m ((c.tc : Thread nD τ).loc main_arg0)) k := by
  show halves (arr m c 4) (ix1 k) = _
  rw [halves_apply]
  exact (congrArg₂ (fun u v : EReal => u + v) (Region.final_sq m c 0 k) (Region.final_sq m c 1 k)).trans (ClassSums.sq_halves _ _ k)

end KernelSums

/-! ## The claims -/

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2)
    (Cert.ReferenceIdeal.ValueP.run (F := Ideal) m ρ)

theorem preserves : Cert.preserves_Kernel_KernelIdeal := trivial

/-- At the ideal instance, from memories agreeing on the arguments: the kernel's results are the shared tail of ITS class
    sums, the reference's the shared tail of ITS class sums (with its own form of the batch variance); the class sums
    agree class by class, and so do the two forms of the variance, the entries being real. -/
theorem algebraic : Cert.algebraic_KernelIdeal_ReferenceIdeal := by
  intro m ρ m' ρ' hpre hagree
  refine ⟨_, _, _, Cert.KernelIdeal.KValue.run m ρ, ?_⟩
  refine (θ_run Cert.ReferenceIdeal.defs _ _).mono (fun _ h c => ?_)
    (Cert.ReferenceIdeal.ValueP.run (F := Ideal) m' ρ')
  obtain ⟨h0, h1, h2, hrest⟩ := h c
  obtain ⟨e0, e1, e2, e3, e4⟩ := hagree c
  have hx := Finite.entries_real _ _ _ _ _ (hpre c)
  -- the reference's class sums, at the kernel's arguments, are the kernel's
  have hn : Cert.ReferenceIdeal.ReadP.val_main_v6 (F := Ideal)
      (m ((c.tc : Thread Cert.KernelIdeal.nD Cert.KernelIdeal.τ).loc Cert.KernelIdeal.main_arg1))
        = Cert.KernelIdeal.KValue.nK m c := by
    funext i
    obtain ⟨k, rfl⟩ : ∃ k : Fin 2048, i = ix1 k := ⟨i 0, eq_ix1 i⟩
    rw [Cert.ReferenceIdeal.RefValue.n_apply, kernel_n]
  have hs : Cert.ReferenceIdeal.ReadP.val_main_v9 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
        = Cert.KernelIdeal.KValue.sK m c := by
    funext i
    obtain ⟨k, rfl⟩ : ∃ k : Fin 2048, i = ix1 k := ⟨i 0, eq_ix1 i⟩
    rw [Cert.ReferenceIdeal.RefValue.s_apply, kernel_s]
  have hv : Tail.kvar Cert.KernelIdeal.Gen.bcast_S_S2048 (Cert.KernelIdeal.KValue.nK m c)
        (Cert.KernelIdeal.KValue.sK m c) (Cert.KernelIdeal.KValue.ssK m c)
      = Tail.rvar Cert.KernelIdeal.Gen.bcast_S_S2048 (Cert.KernelIdeal.KValue.nK m c)
        (Cert.ReferenceIdeal.ReadP.val_main_v24 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))) :=
    Bridge.kvar_eq_rvar _ _ _ hx _ _ _ _ (kernel_n m c) (kernel_s m c) (kernel_ss m c)
      (Cert.ReferenceIdeal.RefValue.ssd_apply _ _)
  refine ⟨h0.trans ?_, h1.trans ?_, h2.trans ?_, hrest⟩
  · rw [Cert.ReferenceIdeal.ReadP.val_main_v44_eq, Cert.ReferenceIdeal.RefValue.out0_eq, e0, e1, e2, e4, hn, hs]
  · rw [Cert.ReferenceIdeal.ReadP.val_main_v45_eq, Cert.ReferenceIdeal.RefValue.out1_eq, e0, e1, e3, e4, hn, hv]
  · rw [Cert.ReferenceIdeal.ReadP.val_main_v47_eq, Cert.ReferenceIdeal.RefValue.out2_eq, e1, e4, hn]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
